-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x3 : Shape := ⟨2, ![8192, 3]⟩
abbrev S8192 : Shape := ⟨1, ![8192]⟩
abbrev S4x1024x1024 : Shape := ⟨3, ![4, 1024, 1024]⟩
abbrev S4x1024x16 : Shape := ⟨3, ![4, 1024, 16]⟩
abbrev S4x16x1024 : Shape := ⟨3, ![4, 16, 1024]⟩
abbrev S4x1024 : Shape := ⟨2, ![4, 1024]⟩
abbrev S4x4 : Shape := ⟨2, ![4, 4]⟩
abbrev S4 : Shape := ⟨1, ![4]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x3 : S_.BroadcastsInDim S8192x3 (![] : Fin 0 → Fin S8192x3.rank)
  reducesTo_S8192x3_S_d0_1 : S8192x3.ReducesTo [0, 1] S_
  bcast_S_S8192 : S_.BroadcastsInDim S8192 (![] : Fin 0 → Fin S8192.rank)
  reducesTo_S8192_S_d0 : S8192.ReducesTo [0] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x16 : S_.BroadcastsInDim S4x1024x16 (![] : Fin 0 → Fin S4x1024x16.rank)
  reducesTo_S4x1024x16_S_d0_1_2 : S4x1024x16.ReducesTo [0, 1, 2] S_
  bcast_S_S4x16x1024 : S_.BroadcastsInDim S4x16x1024 (![] : Fin 0 → Fin S4x16x1024.rank)
  reducesTo_S4x16x1024_S_d0_1_2 : S4x16x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4x4 .f32) (main_arg8 : FVec F S4 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg4 : FVec F S4x1024x16 .f32) (main_arg5 : FVec F S4x16x1024 .f32) (main_arg6 : FVec F S4x1024 .f32) (main_arg7 : FVec F S4x4 .f32) (main_arg8 : FVec F S4 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x16 .f32 := Host.absf main_arg4
  let main_cst_6 : FVec F S_ .f32 := constant S_ .f32 0x7F800000#32
  let main_v20 : FVec F S4x1024x16 .f32 := broadcastInDim S4x1024x16 ![] bcast_S_S4x1024x16 main_cst_6
  let main_v21 : IVec S4x1024x16 1 := cmpf .olt main_v19 main_v20
  let main_c_7 : IVec S_ 1 := constantI S_ 1 1#1
  let main_v22 : IVec S_ 1 := (fun x v => Host.reduce IntOp.andi x v reducesTo_S4x1024x16_S_d0_1_2 h_S_) main_v21 main_c_7
  let main_v23 : IVec S_ 1 := andi main_v18 main_v22
  let main_v24 : FVec F S4x16x1024 .f32 := Host.absf main_arg5
  let main_cst_8 : FVec F S_ .f32 := constant S_ .f32 0x7F800000#32
  let main_v25 : FVec F S4x16x1024 .f32 := broadcastInDim S4x16x1024 ![] bcast_S_S4x16x1024 main_cst_8
  let main_v26 : IVec S4x16x1024 1 := cmpf .olt main_v24 main_v25
  let main_c_9 : IVec S_ 1 := constantI S_ 1 1#1
  let main_v27 : IVec S_ 1 := (fun x v => Host.reduce IntOp.andi x v reducesTo_S4x16x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x3 .f32) (main_arg2 : FVec F S8192 .f32) (main_arg3 : FVec F S4x1024x1024 .f32) (main_arg4 : FVec F S4x1024x16 .f32) (main_arg5 : FVec F S4x16x1024 .f32) (main_arg6 : FVec F S4x1024 .f32) (main_arg7 : FVec F S4x4 .f32) (main_arg8 : FVec F S4 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S8192x3 : Shape := ⟨2, ![8192, 3]⟩
abbrev S8192 : Shape := ⟨1, ![8192]⟩
abbrev S4x1024x1024 : Shape := ⟨3, ![4, 1024, 1024]⟩
abbrev S4x1024x16 : Shape := ⟨3, ![4, 1024, 16]⟩
abbrev S4x16x1024 : Shape := ⟨3, ![4, 16, 1024]⟩
abbrev S4x1024 : Shape := ⟨2, ![4, 1024]⟩
abbrev S4x4 : Shape := ⟨2, ![4, 4]⟩
abbrev S4 : Shape := ⟨1, ![4]⟩
abbrev S8192x1 : Shape := ⟨2, ![8192, 1]⟩
abbrev S8192x4 : Shape := ⟨2, ![8192, 4]⟩
abbrev S1x4 : Shape := ⟨2, ![1, 4]⟩
abbrev S512x1024 : Shape := ⟨2, ![512, 1024]⟩
abbrev S512x4 : Shape := ⟨2, ![512, 4]⟩
abbrev S512x1 : Shape := ⟨2, ![512, 1]⟩
abbrev S1x1024x1024 : Shape := ⟨3, ![1, 1024, 1024]⟩
abbrev S1024x1024 : Shape := ⟨2, ![1024, 1024]⟩
abbrev S1x1024x16 : Shape := ⟨3, ![1, 1024, 16]⟩
abbrev S1024x16 : Shape := ⟨2, ![1024, 16]⟩
abbrev S1x16x1024 : Shape := ⟨3, ![1, 16, 1024]⟩
abbrev S16x1024 : Shape := ⟨2, ![16, 1024]⟩
abbrev S1x1024 : Shape := ⟨2, ![1, 1024]⟩
abbrev S1024 : Shape := ⟨1, ![1024]⟩
abbrev S512x16 : Shape := ⟨2, ![512, 16]⟩

abbrev nBuf : Space → Nat
  | .hbm => 20
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x3, .f32⟩
  | .hbm, ⟨2, _⟩ => ⟨S8192, .f32⟩
  | .hbm, ⟨3, _⟩ => ⟨S4x1024x1024, .f32⟩
  | .hbm, ⟨4, _⟩ => ⟨S4x1024x16, .f32⟩
  | .hbm, ⟨5, _⟩ => ⟨S4x16x1024, .f32⟩
  | .hbm, ⟨6, _⟩ => ⟨S4x1024, .f32⟩
  | .hbm, ⟨7, _⟩ => ⟨S4x4, .f32⟩
  | .hbm, ⟨8, _⟩ => ⟨S4, .f32⟩
  | .hbm, ⟨9, _⟩ => ⟨S8192x1, .f32⟩
  | .hbm, ⟨10, _⟩ => ⟨S8192x4, .f32⟩
  | .hbm, ⟨11, _⟩ => ⟨S4x4, .f32⟩
  | .hbm, ⟨12, _⟩ => ⟨S8192x4, .f32⟩
  | .hbm, ⟨13, _⟩ => ⟨S1x4, .f32⟩
  | .hbm, ⟨14, _⟩ => ⟨S8192x4, .f32⟩
  | .hbm, ⟨15, _⟩ => ⟨S8192x4, .f32⟩
  | .hbm, ⟨16, _⟩ => ⟨S4x1024x1024, .f32⟩
  | .hbm, ⟨17, _⟩ => ⟨S4x1024x16, .f32⟩
  | .hbm, ⟨18, _⟩ => ⟨S4x16x1024, .f32⟩
  | .hbm, ⟨19, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x4, .f32⟩
  | .local _ .vmem, ⟨3, _⟩ => ⟨S512x4, .f32⟩
  | .local _ .vmem, ⟨4, _⟩ => ⟨S4x1024x1024, .f32⟩
  | .local _ .vmem, ⟨5, _⟩ => ⟨S4x1024x16, .f32⟩
  | .local _ .vmem, ⟨6, _⟩ => ⟨S4x16x1024, .f32⟩
  | .local _ .vmem, ⟨7, _⟩ => ⟨S4x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S8192_S8192x1_0 : S8192.BroadcastsInDim S8192x1 (![0] : Fin 1 → Fin S8192x1.rank)
  concatenates_S8192x3_S8192x1_S8192x4_d1 : Shape.Concatenates [S8192x3, S8192x1] S8192x4 1
  transposes_S4x4_S4x4_1_0 : S4x4.Transposes [1, 0] S4x4
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S4x1024x1024_S4x1024x1024_0_2_1 : S4x1024x1024.Transposes [0, 2, 1] S4x1024x1024
  transposes_S4x16x1024_S4x1024x16_0_2_1 : S4x16x1024.Transposes [0, 2, 1] S4x1024x16
  transposes_S4x1024x16_S4x16x1024_0_2_1 : S4x1024x16.Transposes [0, 2, 1] S4x16x1024
  inb_S512x1024_S512x1024_0_0 : ∀ a, (![0, 0] : Fin 2 → Nat) a + S512x1024.size a ≤ S512x1024.size a
  h_S512x1024 : 0 < S512x1024.numel
  inb_S512x4_S512x1_0_0 : ∀ a, (![0, 0] : Fin 2 → Nat) a + S512x1.size a ≤ S512x4.size a
  h_S512x1 : 0 < S512x1.numel
  shapeCasts_S512x1_S512x1 : S512x1.ShapeCasts S512x1
  bitsLt_bf16_f32 : FTy.bits .bf16 < FTy.bits .f32
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024x16_S1x1024x16_0_0_0 : ∀ a, (![0, 0, 0] : Fin 3 → Nat) a + S1x1024x16.size a ≤ S4x1024x16.size a
  h_S1x1024x16 : 0 < S1x1024x16.numel
  shapeCasts_S1x1024x16_S1024x16 : S1x1024x16.ShapeCasts S1024x16
  inb_S4x16x1024_S1x16x1024_0_0_0 : ∀ a, (![0, 0, 0] : Fin 3 → Nat) a + S1x16x1024.size a ≤ S4x16x1024.size a
  h_S1x16x1024 : 0 < S1x16x1024.numel
  shapeCasts_S1x16x1024_S16x1024 : S1x16x1024.ShapeCasts S16x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  broadcasts_S512x1_S512x1024 : S512x1.Broadcasts S512x1024
  shapeCasts_S1024_S1x1024 : S1024.ShapeCasts S1x1024
  broadcasts_S1x1024_S512x1024 : S1x1024.Broadcasts S512x1024
  inb_S512x4_S512x1_0_1 : ∀ a, (![0, 1] : Fin 2 → Nat) a + S512x1.size a ≤ S512x4.size a
  inb_S4x1024x1024_S1x1024x1024_1_0_0 : ∀ a, (![1, 0, 0] : Fin 3 → Nat) a + S1x1024x1024.size a ≤ S4x1024x1024.size a
  inb_S4x1024x16_S1x1024x16_1_0_0 : ∀ a, (![1, 0, 0] : Fin 3 → Nat) a + S1x1024x16.size a ≤ S4x1024x16.size a
  inb_S4x16x1024_S1x16x1024_1_0_0 : ∀ a, (![1, 0, 0] : Fin 3 → Nat) a + S1x16x1024.size a ≤ S4x16x1024.size a
  inb_S4x1024_S1x1024_1_0 : ∀ a, (![1, 0] : Fin 2 → Nat) a + S1x1024.size a ≤ S4x1024.size a
  inb_S512x4_S512x1_0_2 : ∀ a, (![0, 2] : Fin 2 → Nat) a + S512x1.size a ≤ S512x4.size a
  inb_S4x1024x1024_S1x1024x1024_2_0_0 : ∀ a, (![2, 0, 0] : Fin 3 → Nat) a + S1x1024x1024.size a ≤ S4x1024x1024.size a
  inb_S4x1024x16_S1x1024x16_2_0_0 : ∀ a, (![2, 0, 0] : Fin 3 → Nat) a + S1x1024x16.size a ≤ S4x1024x16.size a
  inb_S4x16x1024_S1x16x1024_2_0_0 : ∀ a, (![2, 0, 0] : Fin 3 → Nat) a + S1x16x1024.size a ≤ S4x16x1024.size a
  inb_S4x1024_S1x1024_2_0 : ∀ a, (![2, 0] : Fin 2 → Nat) a + S1x1024.size a ≤ S4x1024.size a
  inb_S512x4_S512x1_0_3 : ∀ a, (![0, 3] : Fin 2 → Nat) a + S512x1.size a ≤ S512x4.size a
  inb_S4x1024x1024_S1x1024x1024_3_0_0 : ∀ a, (![3, 0, 0] : Fin 3 → Nat) a + S1x1024x1024.size a ≤ S4x1024x1024.size a
  inb_S4x1024x16_S1x1024x16_3_0_0 : ∀ a, (![3, 0, 0] : Fin 3 → Nat) a + S1x1024x16.size a ≤ S4x1024x16.size a
  inb_S4x16x1024_S1x16x1024_3_0_0 : ∀ a, (![3, 0, 0] : Fin 3 → Nat) a + S1x16x1024.size a ≤ S4x16x1024.size a
  inb_S4x1024_S1x1024_3_0 : ∀ a, (![3, 0] : Fin 2 → Nat) a + S1x1024.size a ≤ S4x1024.size a
  dot_S8192x4_S4x4_S8192x4_1_0_0_1_n_n_wf : DotDims.WF S8192x4 S4x4 S8192x4 [1] [0] [0] [1] [] []
  dot_S512x1024_S1024x1024_S512x1024_1_0_0_1_n_n_wf : DotDims.WF S512x1024 S1024x1024 S512x1024 [1] [0] [0] [1] [] []
  dot_S512x1024_S1024x16_S512x16_1_0_0_1_n_n_wf : DotDims.WF S512x1024 S1024x16 S512x16 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S8192x4.size a
  hwx0_1 : ∀ i : grid0.Coords, EltTy.bits .f32 = 32 ∨ (Rect.block (s := S8192x4) S512x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1024x1024.size a ≤ S4x1024x1024.size a
  hwx0_2 : ∀ i : grid0.Coords, EltTy.bits .f32 = 32 ∨ (Rect.block (s := S4x1024x1024) S4x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x16.size a ≤ S4x1024x16.size a
  hwx0_3 : ∀ i : grid0.Coords, EltTy.bits .f32 = 32 ∨ (Rect.block (s := S4x1024x16) S4x1024x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x16x1024.size a ≤ S4x16x1024.size a
  hwx0_4 : ∀ i : grid0.Coords, EltTy.bits .f32 = 32 ∨ (Rect.block (s := S4x16x1024) S4x16x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)

variable [Facts₀]

def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x16_S512x16_1_0_0_1_n_n : DotDims S512x1024 S1024x16 S512x16 where
  lhsContracting := [1]
  rhsContracting := [0]
  lhsNonContracting := [0]
  rhsNonContracting := [1]
  lhsBatch := []
  rhsBatch := []
  wf := dot_S512x1024_S1024x16_S512x16_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4x1024x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4x16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x3 : Shape := ⟨2, ![8192, 3]⟩
abbrev S8192 : Shape := ⟨1, ![8192]⟩
abbrev S4x1024x1024 : Shape := ⟨3, ![4, 1024, 1024]⟩
abbrev S4x1024x16 : Shape := ⟨3, ![4, 1024, 16]⟩
abbrev S4x16x1024 : Shape := ⟨3, ![4, 16, 1024]⟩
abbrev S4x1024 : Shape := ⟨2, ![4, 1024]⟩
abbrev S4x4 : Shape := ⟨2, ![4, 4]⟩
abbrev S4 : Shape := ⟨1, ![4]⟩
abbrev S8192x1 : Shape := ⟨2, ![8192, 1]⟩
abbrev S8192x4 : Shape := ⟨2, ![8192, 4]⟩
abbrev S1x4 : Shape := ⟨2, ![1, 4]⟩
abbrev S1x16x1024 : Shape := ⟨3, ![1, 16, 1024]⟩
abbrev S16x1024 : Shape := ⟨2, ![16, 1024]⟩
abbrev S1024x16 : Shape := ⟨2, ![1024, 16]⟩
abbrev S8192x16 : Shape := ⟨2, ![8192, 16]⟩
abbrev S1x1024x16 : Shape := ⟨3, ![1, 1024, 16]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3, .f32⟩
  | .hbm, ⟨2, _⟩ => ⟨S8192, .f32⟩
  | .hbm, ⟨3, _⟩ => ⟨S4x1024x1024, .f32⟩
  | .hbm, ⟨4, _⟩ => ⟨S4x1024x16, .f32⟩
  | .hbm, ⟨5, _⟩ => ⟨S4x16x1024, .f32⟩
  | .hbm, ⟨6, _⟩ => ⟨S4x1024, .f32⟩
  | .hbm, ⟨7, _⟩ => ⟨S4x4, .f32⟩
  | .hbm, ⟨8, _⟩ => ⟨S4, .f32⟩
  | .hbm, ⟨9, _⟩ => ⟨S8192x1, .f32⟩
  | .hbm, ⟨10, _⟩ => ⟨S8192x4, .f32⟩
  | .hbm, ⟨11, _⟩ => ⟨S4x4, .f32⟩
  | .hbm, ⟨12, _⟩ => ⟨S8192x4, .f32⟩
  | .hbm, ⟨13, _⟩ => ⟨S1x4, .f32⟩
  | .hbm, ⟨14, _⟩ => ⟨S8192x4, .f32⟩
  | .hbm, ⟨15, _⟩ => ⟨S8192x4, .f32⟩
  | .hbm, ⟨16, _⟩ => ⟨S8192x1, .f32⟩
  | .hbm, ⟨17, _⟩ => ⟨S1x16x1024, .f32⟩
  | .hbm, ⟨18, _⟩ => ⟨S16x1024, .f32⟩
  | .hbm, ⟨19, _⟩ => ⟨S1024x16, .f32⟩
  | .hbm, ⟨20, _⟩ => ⟨S8192x16, .f32⟩
  | .hbm, ⟨21, _⟩ => ⟨S1x1024x16, .f32⟩
  | .hbm, ⟨22, _⟩ => ⟨S1024x16, .f32⟩
  | .hbm, ⟨23, _⟩ => ⟨S16x1024, .f32⟩
  | .hbm, ⟨24, _⟩ => ⟨S8192x1024, .f32⟩
  | .hbm, ⟨25, _⟩ => ⟨S1x1024x1024, .f32⟩
  | .hbm, ⟨26, _⟩ => ⟨S1024x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S1x16x1024, .f32⟩
  | .hbm, ⟨39, _⟩ => ⟨S16x1024, .f32⟩
  | .hbm, ⟨40, _⟩ => ⟨S1024x16, .f32⟩
  | .hbm, ⟨41, _⟩ => ⟨S8192x16, .f32⟩
  | .hbm, ⟨42, _⟩ => ⟨S1x1024x16, .f32⟩
  | .hbm, ⟨43, _⟩ => ⟨S1024x16, .f32⟩
  | .hbm, ⟨44, _⟩ => ⟨S16x1024, .f32⟩
  | .hbm, ⟨45, _⟩ => ⟨S8192x1024, .f32⟩
  | .hbm, ⟨46, _⟩ => ⟨S1x1024x1024, .f32⟩
  | .hbm, ⟨47, _⟩ => ⟨S1024x1024, .f32⟩
  | .hbm, ⟨48, _⟩ => ⟨S1024x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S1x16x1024, .f32⟩
  | .hbm, ⟨60, _⟩ => ⟨S16x1024, .f32⟩
  | .hbm, ⟨61, _⟩ => ⟨S1024x16, .f32⟩
  | .hbm, ⟨62, _⟩ => ⟨S8192x16, .f32⟩
  | .hbm, ⟨63, _⟩ => ⟨S1x1024x16, .f32⟩
  | .hbm, ⟨64, _⟩ => ⟨S1024x16, .f32⟩
  | .hbm, ⟨65, _⟩ => ⟨S16x1024, .f32⟩
  | .hbm, ⟨66, _⟩ => ⟨S8192x1024, .f32⟩
  | .hbm, ⟨67, _⟩ => ⟨S1x1024x1024, .f32⟩
  | .hbm, ⟨68, _⟩ => ⟨S1024x1024, .f32⟩
  | .hbm, ⟨69, _⟩ => ⟨S1024x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S1x16x1024, .f32⟩
  | .hbm, ⟨81, _⟩ => ⟨S16x1024, .f32⟩
  | .hbm, ⟨82, _⟩ => ⟨S1024x16, .f32⟩
  | .hbm, ⟨83, _⟩ => ⟨S8192x16, .f32⟩
  | .hbm, ⟨84, _⟩ => ⟨S1x1024x16, .f32⟩
  | .hbm, ⟨85, _⟩ => ⟨S1024x16, .f32⟩
  | .hbm, ⟨86, _⟩ => ⟨S16x1024, .f32⟩
  | .hbm, ⟨87, _⟩ => ⟨S8192x1024, .f32⟩
  | .hbm, ⟨88, _⟩ => ⟨S1x1024x1024, .f32⟩
  | .hbm, ⟨89, _⟩ => ⟨S1024x1024, .f32⟩
  | .hbm, ⟨90, _⟩ => ⟨S1024x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S1024, .f32⟩
  | .hbm, ⟨97, _⟩ => ⟨S1x1024, .f32⟩
  | .hbm, ⟨98, _⟩ => ⟨S8192x1024, .f32⟩
  | .hbm, ⟨99, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  concatenates_S8192x3_S8192x1_S8192x4_d1 : Shape.Concatenates [S8192x3, S8192x1] S8192x4 1
  transposes_S4x4_S4x4_1_0 : S4x4.Transposes [1, 0] S4x4
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  slices_S8192x4_S8192x1_0_0 : S8192x4.Slices ![0, 0] S8192x1
  slices_S4x16x1024_S1x16x1024_0_0_0 : S4x16x1024.Slices ![0, 0, 0] S1x16x1024
  shapeCasts_S1x16x1024_S16x1024 : S1x16x1024.ShapeCasts S16x1024
  transposes_S16x1024_S1024x16_1_0 : S16x1024.Transposes [1, 0] S1024x16
  slices_S4x1024x16_S1x1024x16_0_0_0 : S4x1024x16.Slices ![0, 0, 0] S1x1024x16
  shapeCasts_S1x1024x16_S1024x16 : S1x1024x16.ShapeCasts S1024x16
  transposes_S1024x16_S16x1024_1_0 : S1024x16.Transposes [1, 0] S16x1024
  slices_S4x1024x1024_S1x1024x1024_0_0_0 : S4x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  bcast_S8192x1_S8192x1024_0_1 : S8192x1.BroadcastsInDim S8192x1024 (![0, 1] : Fin 2 → Fin S8192x1024.rank)
  slices_S4x1024_S1x1024_0_0 : S4x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S8192x4_S8192x1_0_1 : S8192x4.Slices ![0, 1] S8192x1
  slices_S4x16x1024_S1x16x1024_1_0_0 : S4x16x1024.Slices ![1, 0, 0] S1x16x1024
  slices_S4x1024x16_S1x1024x16_1_0_0 : S4x1024x16.Slices ![1, 0, 0] S1x1024x16
  slices_S4x1024x1024_S1x1024x1024_1_0_0 : S4x1024x1024.Slices ![1, 0, 0] S1x1024x1024
  slices_S4x1024_S1x1024_1_0 : S4x1024.Slices ![1, 0] S1x1024
  slices_S8192x4_S8192x1_0_2 : S8192x4.Slices ![0, 2] S8192x1
  slices_S4x16x1024_S1x16x1024_2_0_0 : S4x16x1024.Slices ![2, 0, 0] S1x16x1024
  slices_S4x1024x16_S1x1024x16_2_0_0 : S4x1024x16.Slices ![2, 0, 0] S1x1024x16
  slices_S4x1024x1024_S1x1024x1024_2_0_0 : S4x1024x1024.Slices ![2, 0, 0] S1x1024x1024
  slices_S4x1024_S1x1024_2_0 : S4x1024.Slices ![2, 0] S1x1024
  slices_S8192x4_S8192x1_0_3 : S8192x4.Slices ![0, 3] S8192x1
  slices_S4x16x1024_S1x16x1024_3_0_0 : S4x16x1024.Slices ![3, 0, 0] S1x16x1024
  slices_S4x1024x16_S1x1024x16_3_0_0 : S4x1024x16.Slices ![3, 0, 0] S1x1024x16
  slices_S4x1024x1024_S1x1024x1024_3_0_0 : S4x1024x1024.Slices ![3, 0, 0] S1x1024x1024
  slices_S4x1024_S1x1024_3_0 : S4x1024.Slices ![3, 0] S1x1024
  dot_S8192x4_S4x4_S8192x4_1_0_0_1_n_n_wf : DotDims.WF S8192x4 S4x4 S8192x4 [1] [0] [0] [1] [] []
  dot_S8192x1024_S1024x16_S8192x16_1_0_0_1_n_n_wf : DotDims.WF S8192x1024 S1024x16 S8192x16 [1] [0] [0] [1] [] []
  dot_S8192x16_S16x1024_S8192x1024_1_0_0_1_n_n_wf : DotDims.WF S8192x16 S16x1024 S8192x1024 [1] [0] [0] [1] [] []
  dot_S8192x1024_S1024x1024_S8192x1024_1_0_0_1_n_n_wf : DotDims.WF S8192x1024 S1024x1024 S8192x1024 [1] [0] [0] [1] [] []

variable [Facts₀]

def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S8192x1024_S1024x16_S8192x16_1_0_0_1_n_n : DotDims S8192x1024 S1024x16 S8192x16 where
  lhsContracting := [1]
  rhsContracting := [0]
  lhsNonContracting := [0]
  rhsNonContracting := [1]
  lhsBatch := []
  rhsBatch := []
  wf := dot_S8192x1024_S1024x16_S8192x16_1_0_0_1_n_n_wf
def dot_S8192x16_S16x1024_S8192x1024_1_0_0_1_n_n : DotDims S8192x16 S16x1024 S8192x1024 where
  lhsContracting := [1]
  rhsContracting := [0]
  lhsNonContracting := [0]
  rhsNonContracting := [1]
  lhsBatch := []
  rhsBatch := []
  wf := dot_S8192x16_S16x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.RowChain.lean ====
/-
  The mathematics both programs compute, for ONE batch row.

  A layer takes a row `x` of 1024 reals, a scalar `a` and the layer's parameters — a dense matrix `W`
  (out × in), the two low-rank factors `B` (rank × in) and `A` (out × rank), a bias `b` — to the row
      c ↦ (Σ_k x k · W c k  +  a · Σ_j (Σ_k x k · B j k) · A c j)  +  b c,
  the dense product plus the scaled low-rank correction plus the bias, grouped exactly so. The network is four such
  layers in sequence, layer `l` with its own parameters and with the row's `l`-th scale. Nothing here depends on how
  rows are batched: the result at array index (r, c) is the chain of row r read at column c, whether the row is met
  inside a block of 512 rows or inside the whole array; and the parameters enter as functions of (layer, coordinates),
  so a program that holds them transposed passes the same functions.
-/
import Idealize.ShloMosaic.PureOps.Ideal
import Idealize.ShloMosaic.Lib.ValueIdx

noncomputable section

namespace Cert.RowChain

open Idealize.ShloMosaic Idealize.ShloMosaic.ValueIdx

/-- One layer on one row: dense product, plus the scale times the low-rank product, plus the bias. -/
def rowLayer (W : Fin 1024 → Fin 1024 → EReal) (B : Fin 16 → Fin 1024 → EReal) (A : Fin 1024 → Fin 16 → EReal)
    (b : Fin 1024 → EReal) (a : EReal) (x : Fin 1024 → EReal) : Fin 1024 → EReal :=
  fun c => ((∑ k : Fin 1024, x k * W c k) + a * ∑ j : Fin 16, (∑ k : Fin 1024, x k * B j k) * A c j) + b c

/-- The four layers in sequence on one row: layer `l` has parameters `W l`, `B l`, `A l`, `b l` and scale `al l`. -/
def chain (W : Fin 4 → Fin 1024 → Fin 1024 → EReal) (B : Fin 4 → Fin 16 → Fin 1024 → EReal)
    (A : Fin 4 → Fin 1024 → Fin 16 → EReal) (b : Fin 4 → Fin 1024 → EReal) (al : Fin 4 → EReal)
    (x : Fin 1024 → EReal) : Fin 1024 → EReal :=
  rowLayer (W 3) (B 3) (A 3) (b 3) (al 3)
    (rowLayer (W 2) (B 2) (A 2) (b 2) (al 2)
      (rowLayer (W 1) (B 1) (A 1) (b 1) (al 1)
        (rowLayer (W 0) (B 0) (A 0) (b 0) (al 0) x)))

/-- The whole result array from the stacked parameters `Ws` [4, out, in], `As` [4, out, rank], `Bs` [4, rank, in],
    `bs` [4, out]: at (r, c), the chain of row r of `mu`, scaled by row r of `al`, read at column c. -/
def result (mu : (⟨2, ![8192, 1024]⟩ : Shape).Idx → EReal) (al : (⟨2, ![8192, 4]⟩ : Shape).Idx → EReal)
    (Ws : (⟨3, ![4, 1024, 1024]⟩ : Shape).Idx → EReal) (As : (⟨3, ![4, 1024, 16]⟩ : Shape).Idx → EReal)
    (Bs : (⟨3, ![4, 16, 1024]⟩ : Shape).Idx → EReal) (bs : (⟨2, ![4, 1024]⟩ : Shape).Idx → EReal) :
    (⟨2, ![8192, 1024]⟩ : Shape).Idx → EReal :=
  fun i => chain (fun l c k => Ws (ix3 l c k)) (fun l j k => Bs (ix3 l j k)) (fun l c j => As (ix3 l c j))
    (fun l c => bs (ix2 l c)) (fun l => al (ix2 (i 0) l)) (fun k => mu (ix2 (i 0) k)) (i 1)

end Cert.RowChain

end
-- ==== Proof.LibDot.lean ====
/-
  Two general facts for reading matrix code at an index, at the ideal values.

  * A plain matrix product [a, b] × [b, c] → [a, c] accumulated into the zero splat is, at (p, j), the sum over the
    contracted index k of the left factor at (p, k) times the right factor at (k, j). The dot record enters only through
    the four coordinate facts every plain record satisfies (left operand indexed by output row and contraction, right
    operand by contraction and output column), so the statement serves any such record.
  * A column [a, 1] broadcast to [a, b] is, at (p, c), the column at row p.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A plain matrix product into the zero accumulator, read at `(p, j)`: the sum over `k` of the left factor's row `p`
    times the right factor's column `j`. `D` is any dot record over [a, b] × [b, c] → [a, c] with one contracted
    axis of extent `b` (`hr`, `hs`) whose left operand index is (output row, contraction) and whose right operand
    index is (contraction, output column) (`hl0` … `hr1`). -/
theorem matmul_zero_ix2 {a b c : ℕ} {φ₁ φ₂ : FTy} (D : DotDims ⟨2, ![a, b]⟩ ⟨2, ![b, c]⟩ ⟨2, ![a, c]⟩)
    (prec : Option ContractPrecision) (hr : D.contr.rank = 1) (hs : D.contr.size ⟨0, by omega⟩ = b)
    (hl0 : ∀ (i : (⟨2, ![a, c]⟩ : Shape).Idx) (q : D.contr.Idx), (D.lhsIdx i q 0).val = (i 0).val)
    (hl1 : ∀ (i : (⟨2, ![a, c]⟩ : Shape).Idx) (q : D.contr.Idx), (D.lhsIdx i q 1).val = (q ⟨0, by omega⟩).val)
    (hr0 : ∀ (i : (⟨2, ![a, c]⟩ : Shape).Idx) (q : D.contr.Idx), (D.rhsIdx i q 0).val = (q ⟨0, by omega⟩).val)
    (hr1 : ∀ (i : (⟨2, ![a, c]⟩ : Shape).Idx) (q : D.contr.Idx), (D.rhsIdx i q 1).val = (i 1).val)
    (x : FVec Ideal ⟨2, ![a, b]⟩ φ₁) (w : FVec Ideal ⟨2, ![b, c]⟩ φ₂) (p : Fin a) (j : Fin c) :
    FloatOps.matmul D prec x w (constant ⟨2, ![a, c]⟩ .f32 0x00000000#32) (ix2 p j)
      = ∑ k : Fin b, x (ix2 p k) * w (ix2 k j) := by
  rw [Ideal.matmul_constant_zero_apply, ← Equiv.sum_comp (contrEquiv1 D b hr hs).symm]
  refine Finset.sum_congr rfl fun k _ => ?_
  have hk := contrEquiv1_symm_val D b hr hs k
  have el : D.lhsIdx (ix2 p j) ((contrEquiv1 D b hr hs).symm k) = ix2 p k := funext fun ax => Fin.ext (by
    match ax with
    | ⟨0, _⟩ => exact hl0 _ _
    | ⟨1, _⟩ => exact (hl1 _ _).trans hk)
  have er : D.rhsIdx (ix2 p j) ((contrEquiv1 D b hr hs).symm k) = ix2 k j := funext fun ax => Fin.ext (by
    match ax with
    | ⟨0, _⟩ => exact (hr0 _ _).trans hk
    | ⟨1, _⟩ => exact hr1 _ _)
  rw [el, er]

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibDot

end
-- ==== Proof.KernelLayer.lean ====
/-
  One layer of the kernel body, read at an index.

  The body is four copies of one sequence of vector operations on a block of 512 rows: cast the running value to
  bf16, multiply it by the layer's dense matrix and, through the rank-16 bottleneck, by the two low-rank factors
  (three MXU products into zero accumulators), scale the low-rank product by the block's column of per-row scales,
  add it to the dense product, add the bias row. `layerOps` is that sequence as one function of the six values it
  consumes. At the ideal values the casts are the identity and each product is a plain sum, so `layerOps` at (p, c)
  is `RowChain.rowLayer` of row p: `layerOps_apply`. The printed payloads are compositions of `layerOps` by
  unfolding (`stored_eq`).
-/
import proofs.«151396_j2216203125290_1_alg».proof.Proof.Gen.KernelIdeal.Frame
import proofs.«151396_j2216203125290_1_alg».proof.Proof.RowChain
import proofs.«151396_j2216203125290_1_alg».proof.Proof.LibDot
import Idealize.ShloMosaic.Lib.ValueLayout

noncomputable section

namespace Cert.KernelIdeal.Layers

open Cert.KernelIdeal Cert.KernelIdeal.Gen Idealize.ShloMosaic Idealize.ShloMosaic.ValueIdx Cert.RowChain Cert.LibDot

variable {F : FTy → Type} [FloatOps F]

/-- One layer as the body spells it: `(x·W + a ⊙ ((x·B)·A)) + b`, with `x`, `W`, `B`, `A` already in bf16, the
    inner product cast to bf16 before the second low-rank product, `a` a column and `b` a row. -/
def layerOps (xb : FVec F S512x1024 .bf16) (a : FVec F S512x1 .f32) (w : FVec F S1024x1024 .bf16)
    (bm : FVec F S1024x16 .bf16) (am : FVec F S16x1024 .bf16) (bv : FVec F S1024 .f32) : FVec F S512x1024 .f32 :=
  addf
    (addf (matmul dot_S512x1024_S1024x1024_S512x1024_1_0_0_1_n_n none xb w (constant S512x1024 .f32 0x00000000#32))
      (mulf (broadcastTo S512x1024 a broadcasts_S512x1_S512x1024)
        (matmul dot_S512x16_S16x1024_S512x1024_1_0_0_1_n_n none
          (truncf .bf16 (matmul dot_S512x1024_S1024x16_S512x16_1_0_0_1_n_n none xb bm (constant S512x16 .f32 0x00000000#32)) bitsLt_bf16_f32)
          am (constant S512x1024 .f32 0x00000000#32))))
    (broadcastTo S512x1024 (shapeCast S1x1024 bv shapeCasts_S1024_S1x1024) broadcasts_S1x1024_S512x1024)

/-! ## The three products' operand indices -/

theorem dense_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem dense_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dense_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dense_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem down_l0 (i : S512x16.Idx) (q : dot_S512x1024_S1024x16_S512x16_1_0_0_1_n_n.contr.Idx) : (dot_S512x1024_S1024x16_S512x16_1_0_0_1_n_n.lhsIdx i q 0).val = (i 0).val := by
  unfold DotDims.lhsIdx
  rw [dif_neg (show ¬(0 : Fin S512x1024.rank) ∈ dot_S512x1024_S1024x16_S512x16_1_0_0_1_n_n.lhsBatch by decide), dif_pos (show (0 : Fin S512x1024.rank) ∈ dot_S512x1024_S1024x16_S512x16_1_0_0_1_n_n.lhsNonContracting by decide)]
  rfl
theorem down_l1 (i : S512x16.Idx) (q : dot_S512x1024_S1024x16_S512x16_1_0_0_1_n_n.contr.Idx) : (dot_S512x1024_S1024x16_S512x16_1_0_0_1_n_n.lhsIdx i q 1).val = (q ⟨0, by decide⟩).val :=
  dot_S512x1024_S1024x16_S512x16_1_0_0_1_n_n.lhsIdx_val_of_single rfl i q
theorem down_r0 (i : S512x16.Idx) (q : dot_S512x1024_S1024x16_S512x16_1_0_0_1_n_n.contr.Idx) : (dot_S512x1024_S1024x16_S512x16_1_0_0_1_n_n.rhsIdx i q 0).val = (q ⟨0, by decide⟩).val :=
  dot_S512x1024_S1024x16_S512x16_1_0_0_1_n_n.rhsIdx_val_of_single rfl i q
theorem down_r1 (i : S512x16.Idx) (q : dot_S512x1024_S1024x16_S512x16_1_0_0_1_n_n.contr.Idx) : (dot_S512x1024_S1024x16_S512x16_1_0_0_1_n_n.rhsIdx i q 1).val = (i 1).val := by
  unfold DotDims.rhsIdx
  rw [dif_neg (show ¬(1 : Fin S1024x16.rank) ∈ dot_S512x1024_S1024x16_S512x16_1_0_0_1_n_n.rhsBatch by decide), dif_pos (show (1 : Fin S1024x16.rank) ∈ dot_S512x1024_S1024x16_S512x16_1_0_0_1_n_n.rhsNonContracting by decide)]
  rfl

theorem up_l0 (i : S512x1024.Idx) (q : dot_S512x16_S16x1024_S512x1024_1_0_0_1_n_n.contr.Idx) : (dot_S512x16_S16x1024_S512x1024_1_0_0_1_n_n.lhsIdx i q 0).val = (i 0).val := by
  unfold DotDims.lhsIdx
  rw [dif_neg (show ¬(0 : Fin S512x16.rank) ∈ dot_S512x16_S16x1024_S512x1024_1_0_0_1_n_n.lhsBatch by decide), dif_pos (show (0 : Fin S512x16.rank) ∈ dot_S512x16_S16x1024_S512x1024_1_0_0_1_n_n.lhsNonContracting by decide)]
  rfl
theorem up_l1 (i : S512x1024.Idx) (q : dot_S512x16_S16x1024_S512x1024_1_0_0_1_n_n.contr.Idx) : (dot_S512x16_S16x1024_S512x1024_1_0_0_1_n_n.lhsIdx i q 1).val = (q ⟨0, by decide⟩).val :=
  dot_S512x16_S16x1024_S512x1024_1_0_0_1_n_n.lhsIdx_val_of_single rfl i q
theorem up_r0 (i : S512x1024.Idx) (q : dot_S512x16_S16x1024_S512x1024_1_0_0_1_n_n.contr.Idx) : (dot_S512x16_S16x1024_S512x1024_1_0_0_1_n_n.rhsIdx i q 0).val = (q ⟨0, by decide⟩).val :=
  dot_S512x16_S16x1024_S512x1024_1_0_0_1_n_n.rhsIdx_val_of_single rfl i q
theorem up_r1 (i : S512x1024.Idx) (q : dot_S512x16_S16x1024_S512x1024_1_0_0_1_n_n.contr.Idx) : (dot_S512x16_S16x1024_S512x1024_1_0_0_1_n_n.rhsIdx i q 1).val = (i 1).val := by
  unfold DotDims.rhsIdx
  rw [dif_neg (show ¬(1 : Fin S16x1024.rank) ∈ dot_S512x16_S16x1024_S512x1024_1_0_0_1_n_n.rhsBatch by decide), dif_pos (show (1 : Fin S16x1024.rank) ∈ dot_S512x16_S16x1024_S512x1024_1_0_0_1_n_n.rhsNonContracting by decide)]
  rfl

/-- The dense product at (p, c): row p of the running value against column c of the layer's matrix. -/
theorem dense_apply (x : FVec Ideal S512x1024 .bf16) (w : FVec Ideal S1024x1024 .bf16) (p : Fin 512) (c : Fin 1024) :
    matmul dot_S512x1024_S1024x1024_S512x1024_1_0_0_1_n_n none x w (constant S512x1024 .f32 0x00000000#32) (ix2 p c) = ∑ k : Fin 1024, x (ix2 p k) * w (ix2 k c) :=
  matmul_zero_ix2 dot_S512x1024_S1024x1024_S512x1024_1_0_0_1_n_n none rfl rfl dense_l0 dense_l1 dense_r0 dense_r1 x w p c

/-- The product into the rank-16 bottleneck at (p, j). -/
theorem down_apply (x : FVec Ideal S512x1024 .bf16) (bm : FVec Ideal S1024x16 .bf16) (p : Fin 512) (j : Fin 16) :
    matmul dot_S512x1024_S1024x16_S512x16_1_0_0_1_n_n none x bm (constant S512x16 .f32 0x00000000#32) (ix2 p j) = ∑ k : Fin 1024, x (ix2 p k) * bm (ix2 k j) :=
  matmul_zero_ix2 dot_S512x1024_S1024x16_S512x16_1_0_0_1_n_n none rfl rfl down_l0 down_l1 down_r0 down_r1 x bm p j

/-- The product out of the bottleneck at (p, c). -/
theorem up_apply (y : FVec Ideal S512x16 .bf16) (am : FVec Ideal S16x1024 .bf16) (p : Fin 512) (c : Fin 1024) :
    matmul dot_S512x16_S16x1024_S512x1024_1_0_0_1_n_n none y am (constant S512x1024 .f32 0x00000000#32) (ix2 p c) = ∑ j : Fin 16, y (ix2 p j) * am (ix2 j c) :=
  matmul_zero_ix2 dot_S512x16_S16x1024_S512x1024_1_0_0_1_n_n none rfl rfl up_l0 up_l1 up_r0 up_r1 y am p c

/-- ONE LAYER AT AN INDEX: at the ideal values the body's layer at (p, c) is the row layer of row p at column c, its
    matrices read transposed (the body holds them as in × out, in × rank, rank × out). -/
theorem layerOps_apply (xb : FVec Ideal S512x1024 .bf16) (a : FVec Ideal S512x1 .f32) (w : FVec Ideal S1024x1024 .bf16)
    (bm : FVec Ideal S1024x16 .bf16) (am : FVec Ideal S16x1024 .bf16) (bv : FVec Ideal S1024 .f32) (p : Fin 512) (c : Fin 1024) :
    layerOps xb a w bm am bv (ix2 p c)
      = rowLayer (fun c k => w (ix2 k c)) (fun j k => bm (ix2 k j)) (fun c j => am (ix2 j c)) (fun c => bv (ix1 c))
          (a (ix2 p (0 : Fin 1))) (fun k => xb (ix2 p k)) c := by
  unfold layerOps rowLayer
  rw [addf_apply, addf_apply, mulf_apply, dense_apply, up_apply, broadcastTo_a1_ab_apply, broadcastTo_1b_ab_apply,
    shapeCast_a_1a_apply]
  simp only [truncf_apply, down_apply]

end Cert.KernelIdeal.Layers

end
-- ==== Proof.KernelStored.lean ====
/-
  What the body stores, as the chain of four row layers.

  Each layer consumes six loaded values: the running block (the loaded input block for the first layer, the previous
  layer's result after it), a column of the block of scales, and the layer's slice of each parameter stack, loaded
  with a leading unit axis. `layerLoaded` is `layerOps` on those values after the casts the body applies (drop the
  unit axis, cast to bf16). The stored payload is four nested `layerLoaded` by unfolding the printed payloads
  (`stored_eq`), and at (p, c) one `layerLoaded` is the row layer of row p over the loaded slices (`layerLoaded_apply`).
-/
import proofs.«151396_j2216203125290_1_alg».proof.Proof.KernelLayer

noncomputable section

namespace Cert.KernelIdeal.Layers

open Cert.KernelIdeal Cert.KernelIdeal.Gen Idealize.ShloMosaic Idealize.ShloMosaic.ValueIdx Cert.RowChain

variable {F : FTy → Type} [FloatOps F]

/-- One layer on the values the body loads for it. -/
def layerLoaded (x : FVec F S512x1024 .f32) (va : Vec F S512x1 .f32) (vW : Vec F S1x1024x1024 .f32)
    (vB : Vec F S1x1024x16 .f32) (vA : Vec F S1x16x1024 .f32) (vb : Vec F S1x1024 .f32) : FVec F S512x1024 .f32 :=
  layerOps (truncf .bf16 x bitsLt_bf16_f32) (shapeCast S512x1 va shapeCasts_S512x1_S512x1)
    (truncf .bf16 (shapeCast S1024x1024 vW shapeCasts_S1x1024x1024_S1024x1024) bitsLt_bf16_f32)
    (truncf .bf16 (shapeCast S1024x16 vB shapeCasts_S1x1024x16_S1024x16) bitsLt_bf16_f32)
    (truncf .bf16 (shapeCast S16x1024 vA shapeCasts_S1x16x1024_S16x1024) bitsLt_bf16_f32)
    (shapeCast S1024 vb shapeCasts_S1x1024_S1024)

/-- The stored payload is the four layers nested, each on its own loads (the printed payloads unfolded). -/
theorem stored_eq (v0 : Vec F S512x1024 .f32) (v1 : Vec F S512x1 .f32) (v4 : Vec F S1x1024x1024 .f32)
    (v7 : Vec F S1x1024x16 .f32) (v10 : Vec F S1x16x1024 .f32) (v13 : Vec F S1x1024 .f32)
    (v25 : Vec F S512x1 .f32) (v28 : Vec F S1x1024x1024 .f32) (v31 : Vec F S1x1024x16 .f32)
    (v34 : Vec F S1x16x1024 .f32) (v37 : Vec F S1x1024 .f32)
    (v49 : Vec F S512x1 .f32) (v52 : Vec F S1x1024x1024 .f32) (v55 : Vec F S1x1024x16 .f32)
    (v58 : Vec F S1x16x1024 .f32) (v61 : Vec F S1x1024 .f32)
    (v73 : Vec F S512x1 .f32) (v76 : Vec F S1x1024x1024 .f32) (v79 : Vec F S1x1024x16 .f32)
    (v82 : Vec F S1x16x1024 .f32) (v85 : Vec F S1x1024 .f32) :
    k0_pay1 (k0_pay7 v61)
        (k0_pay8 (k0_pay2 v25) (k0_pay3 v0 v1 v4 v7 v10 v13) (k0_pay4 v28) (k0_pay5 v31) v34 v37 v52)
        (k0_pay9 (k0_pay2 v25) (k0_pay3 v0 v1 v4 v7 v10 v13) (k0_pay4 v28) (k0_pay5 v31) v34 v37 v49 v55 v58)
        v73 v76 v79 v82 v85
      = layerLoaded (layerLoaded (layerLoaded (layerLoaded v0 v1 v4 v7 v10 v13) v25 v28 v31 v34 v37) v49 v52 v55 v58 v61)
          v73 v76 v79 v82 v85 := rfl

/-- ONE LOADED LAYER AT AN INDEX: the row layer of row p over the loaded slices, each read past its unit axis. -/
theorem layerLoaded_apply (x : FVec Ideal S512x1024 .f32) (va : Vec Ideal S512x1 .f32) (vW : Vec Ideal S1x1024x1024 .f32)
    (vB : Vec Ideal S1x1024x16 .f32) (vA : Vec Ideal S1x16x1024 .f32) (vb : Vec Ideal S1x1024 .f32) (p : Fin 512) (c : Fin 1024) :
    layerLoaded x va vW vB vA vb (ix2 p c)
      = rowLayer (fun c k => vW (ix3 (0 : Fin 1) k c)) (fun j k => vB (ix3 (0 : Fin 1) k j))
          (fun c j => vA (ix3 (0 : Fin 1) j c)) (fun c => vb (ix2 (0 : Fin 1) c)) (va (ix2 p (0 : Fin 1)))
          (fun k => x (ix2 p k)) c := by
  unfold layerLoaded
  rw [layerOps_apply]
  simp only [truncf_apply, shapeCast_1ab_ab_apply, shapeCast_1a_a_apply, shapeCast_self]

end Cert.KernelIdeal.Layers

end
-- ==== Proof.LibSlice.lean ====
/-
  Loads through unit-stride rectangles that pick ONE layer of a stack, one row of a matrix or one column of a matrix,
  read at an index: the load at the rectangle's own index is the operand at that index moved by the rectangle's
  offset. General in the extents; the offset is a numeral with its bound.
-/
import Idealize.ShloMosaic.Lib.Pipeline.FrameBody
import Idealize.ShloMosaic.Lib.ValueIdx

noncomputable section

namespace Cert.LibSlice

open Idealize.ShloMosaic Idealize.ShloMosaic.ValueIdx

variable {Val : EltTy → Type} {e : EltTy}

/-- Layer `l` of a stack `[n0, n1, n2]`, loaded as `[1, n1, n2]`, at `(0, i, j)` is the stack at `(l, i, j)`. -/
theorem ld_layer3 {n0 n1 n2 : ℕ} (X : (⟨3, ![n0, n1, n2]⟩ : Shape).Idx → Val e) (l : ℕ) (hl : l < n0)
    (inb : ∀ a, (![l, 0, 0] : Fin 3 → ℕ) a + (![1, n1, n2] : Fin 3 → ℕ) a ≤ (⟨3, ![n0, n1, n2]⟩ : Shape).size a)
    (i : Fin n1) (j : Fin n2) :
    View.ld X (Rect.unit (s := ⟨3, ![n0, n1, n2]⟩) ![l, 0, 0] ![1, n1, n2] inb) (ix3 (0 : Fin 1) i j) = X (ix3 ⟨l, hl⟩ i j) :=
  congrArg X (funext fun a => Fin.ext (by
    match a with
    | ⟨0, _⟩ => show l + 1 * 0 = l; omega
    | ⟨1, _⟩ => show 0 + 1 * i.val = i.val; omega
    | ⟨2, _⟩ => show 0 + 1 * j.val = j.val; omega))

/-- Row `l` of a matrix `[n0, n1]`, loaded as `[1, n1]`, at `(0, j)` is the matrix at `(l, j)`. -/
theorem ld_row2 {n0 n1 : ℕ} (X : (⟨2, ![n0, n1]⟩ : Shape).Idx → Val e) (l : ℕ) (hl : l < n0)
    (inb : ∀ a, (![l, 0] : Fin 2 → ℕ) a + (![1, n1] : Fin 2 → ℕ) a ≤ (⟨2, ![n0, n1]⟩ : Shape).size a) (j : Fin n1) :
    View.ld X (Rect.unit (s := ⟨2, ![n0, n1]⟩) ![l, 0] ![1, n1] inb) (ix2 (0 : Fin 1) j) = X (ix2 ⟨l, hl⟩ j) :=
  congrArg X (funext fun a => Fin.ext (by
    match a with
    | ⟨0, _⟩ => show l + 1 * 0 = l; omega
    | ⟨1, _⟩ => show 0 + 1 * j.val = j.val; omega))

/-- Column `l` of a matrix `[n0, n1]`, loaded as `[n0, 1]`, at `(i, 0)` is the matrix at `(i, l)`. -/
theorem ld_col2 {n0 n1 : ℕ} (X : (⟨2, ![n0, n1]⟩ : Shape).Idx → Val e) (l : ℕ) (hl : l < n1)
    (inb : ∀ a, (![0, l] : Fin 2 → ℕ) a + (![n0, 1] : Fin 2 → ℕ) a ≤ (⟨2, ![n0, n1]⟩ : Shape).size a) (i : Fin n0) :
    View.ld X (Rect.unit (s := ⟨2, ![n0, n1]⟩) ![0, l] ![n0, 1] inb) (ix2 i (0 : Fin 1)) = X (ix2 i ⟨l, hl⟩) :=
  congrArg X (funext fun a => Fin.ext (by
    match a with
    | ⟨0, _⟩ => show 0 + 1 * i.val = i.val; omega
    | ⟨1, _⟩ => show l + 1 * 0 = l; omega))

end Cert.LibSlice

end
-- ==== Proof.KernelValue.lean ====
/-
  The kernel's result array is `RowChain.result`.

  A grid point t takes rows 512·t … 512·t + 511 of the input and of the alphas array, and all of the three transposed
  parameter stacks and of the bias stack; its body leaves, at (p, c) of its output block, the chain of row p of its input
  block (`out_apply`: the four loaded layers, each slice read back to the stack's coordinates). A block's row p is the
  array's row 512·t + p, and the chain of a row does not know which block the row is met in, so what point t writes back
  is block t of ONE whole-array function of what the region finds (`flushed_eq`). The sixteen blocks tile the array
  (`cover`), so the array ends at that function (`final`). The region finds the alphas array and the stacks transposed
  by the host operations before it (`found_*`); a transposed stack read at swapped coordinates is the stack, which
  turns the function into `RowChain.result` of the arguments (`wholeArray_eq`).
-/
import proofs.«151396_j2216203125290_1_alg».proof.Proof.Gen.KernelIdeal.Value
import proofs.«151396_j2216203125290_1_alg».proof.Proof.KernelStored
import proofs.«151396_j2216203125290_1_alg».proof.Proof.LibSlice
import Idealize.ShloMosaic.Lib.StableHlo.Run
import Idealize.ShloMosaic.Lib.ValueLayout
import Idealize.ShloMosaic.Lib.Tactic

noncomputable section

namespace Cert.KernelIdeal.Chain

open Cert.KernelIdeal Cert.KernelIdeal.Gen Cert.KernelIdeal.Layers Idealize.ShloMosaic Idealize.ShloMosaic.TcCoe Idealize.SL.Sem
open Idealize.ShloMosaic.ValueIdx Cert.RowChain Cert.LibSlice
open Idealize.ShloMosaic.Pipeline (Dat)

theorem hz : (![0, 0] : Fin 2 → Nat) = fun _ => 0 :=
  funext fun a => by match a with | ⟨0, _⟩ => rfl | ⟨1, _⟩ => rfl

/-! ## What the body leaves at an index, from its six blocks -/

/-- At (p, c) the body's result is the chain of row p of the input block, scaled by row p of the block of scales, over
    the three transposed stacks and the bias stack it holds whole. -/
theorem out_apply (x0 : Vec Ideal S512x1024 .f32) (x1 : Vec Ideal S512x4 .f32) (x2 : Vec Ideal S4x1024x1024 .f32)
    (x3 : Vec Ideal S4x1024x16 .f32) (x4 : Vec Ideal S4x16x1024 .f32) (x5 : Vec Ideal S4x1024 .f32) (p : Fin 512) (c : Fin 1024) :
    out0_6 x0 x1 x2 x3 x4 x5 (ix2 p c)
      = chain (fun l c k => x2 (ix3 l k c)) (fun l j k => x3 (ix3 l k j)) (fun l c j => x4 (ix3 l j c))
          (fun l c => x5 (ix2 l c)) (fun l => x1 (ix2 p l)) (fun k => x0 (ix2 p k)) c := by
  unfold out0_6
  rw [View.canon_unit_zero hz]
  simp only [View.ld_unit_zero (S := S512x1024) hz]
  rw [stored_eq]
  simp only [layerLoaded_apply]
  simp only [ld_layer3 (Val := Elt Ideal) (e := .f32) (n0 := 4) (n1 := 1024) (n2 := 1024) x2 0 (by decide),
    ld_layer3 (Val := Elt Ideal) (e := .f32) (n0 := 4) (n1 := 1024) (n2 := 1024) x2 1 (by decide),
    ld_layer3 (Val := Elt Ideal) (e := .f32) (n0 := 4) (n1 := 1024) (n2 := 1024) x2 2 (by decide),
    ld_layer3 (Val := Elt Ideal) (e := .f32) (n0 := 4) (n1 := 1024) (n2 := 1024) x2 3 (by decide),
    ld_layer3 (Val := Elt Ideal) (e := .f32) (n0 := 4) (n1 := 1024) (n2 := 16) x3 0 (by decide),
    ld_layer3 (Val := Elt Ideal) (e := .f32) (n0 := 4) (n1 := 1024) (n2 := 16) x3 1 (by decide),
    ld_layer3 (Val := Elt Ideal) (e := .f32) (n0 := 4) (n1 := 1024) (n2 := 16) x3 2 (by decide),
    ld_layer3 (Val := Elt Ideal) (e := .f32) (n0 := 4) (n1 := 1024) (n2 := 16) x3 3 (by decide),
    ld_layer3 (Val := Elt Ideal) (e := .f32) (n0 := 4) (n1 := 16) (n2 := 1024) x4 0 (by decide),
    ld_layer3 (Val := Elt Ideal) (e := .f32) (n0 := 4) (n1 := 16) (n2 := 1024) x4 1 (by decide),
    ld_layer3 (Val := Elt Ideal) (e := .f32) (n0 := 4) (n1 := 16) (n2 := 1024) x4 2 (by decide),
    ld_layer3 (Val := Elt Ideal) (e := .f32) (n0 := 4) (n1 := 16) (n2 := 1024) x4 3 (by decide),
    ld_row2 (Val := Elt Ideal) (e := .f32) (n0 := 4) (n1 := 1024) x5 0 (by decide),
    ld_row2 (Val := Elt Ideal) (e := .f32) (n0 := 4) (n1 := 1024) x5 1 (by decide),
    ld_row2 (Val := Elt Ideal) (e := .f32) (n0 := 4) (n1 := 1024) x5 2 (by decide),
    ld_row2 (Val := Elt Ideal) (e := .f32) (n0 := 4) (n1 := 1024) x5 3 (by decide),
    ld_col2 (Val := Elt Ideal) (e := .f32) (n0 := 512) (n1 := 4) x1 0 (by decide),
    ld_col2 (Val := Elt Ideal) (e := .f32) (n0 := 512) (n1 := 4) x1 1 (by decide),
    ld_col2 (Val := Elt Ideal) (e := .f32) (n0 := 512) (n1 := 4) x1 2 (by decide),
    ld_col2 (Val := Elt Ideal) (e := .f32) (n0 := 512) (n1 := 4) x1 3 (by decide)]
  rfl

/-- The same with each block named by the array it is cut from: rows R of the input and of the alphas array for the
    block's row p, the stacks whole. -/
theorem out_block (x0 : Vec Ideal S512x1024 .f32) (x1 : Vec Ideal S512x4 .f32) (x2 : Vec Ideal S4x1024x1024 .f32)
    (x3 : Vec Ideal S4x1024x16 .f32) (x4 : Vec Ideal S4x16x1024 .f32) (x5 : Vec Ideal S4x1024 .f32)
    (M : S8192x1024.Idx → EReal) (Al : S8192x4.Idx → EReal) (Wt : S4x1024x1024.Idx → EReal) (Bt : S4x1024x16.Idx → EReal)
    (At : S4x16x1024.Idx → EReal) (bb : S4x1024.Idx → EReal) (R : Fin 8192) (p : Fin 512) (q : Fin 1024)
    (h0 : ∀ k : Fin 1024, x0 (ix2 p k) = M (ix2 R k)) (h1 : ∀ l : Fin 4, x1 (ix2 p l) = Al (ix2 R l))
    (h2 : ∀ i, x2 i = Wt i) (h3 : ∀ i, x3 i = Bt i) (h4 : ∀ i, x4 i = At i) (h5 : ∀ i, x5 i = bb i) :
    out0_6 x0 x1 x2 x3 x4 x5 (ix2 p q)
      = chain (fun l c k => Wt (ix3 l k c)) (fun l j k => Bt (ix3 l k j)) (fun l c j => At (ix3 l j c))
          (fun l c => bb (ix2 l c)) (fun l => Al (ix2 R l)) (fun k => M (ix2 R k)) q := by
  rw [out_apply]
  simp only [h0, h1, h2, h3, h4, h5]

variable (m : (ℓ : Loc nD τ sig) → Buf (Elt Ideal) ℓ) (ρ : Dev nD → PrngReg)

/-! ## What the region finds: the host operations before it -/

/-- The alphas array as the program computes it: the parameters `nu` and `t` joined into four columns, times the
    transposed head matrix, plus the head bias along the rows. -/
def alphas (nu : (⟨S8192x3, .f32⟩ : BufTy).Contents (Elt Ideal)) (t : (⟨S8192, .f32⟩ : BufTy).Contents (Elt Ideal))
    (aW : (⟨S4x4, .f32⟩ : BufTy).Contents (Elt Ideal)) (ab : (⟨S4, .f32⟩ : BufTy).Contents (Elt Ideal)) :
    (⟨S8192x4, .f32⟩ : BufTy).Contents (Elt Ideal) :=
  addf (F := Ideal)
    (Host.dotGeneral (F := Ideal) (φ₁ := .f32) (φ₂ := .f32) dot_S8192x4_S4x4_S8192x4_1_0_0_1_n_n none
      ((concatenate S8192x4 1
          [⟨S8192x3, nu⟩, ⟨S8192x1, (broadcastInDim S8192x1 ![0] bcast_S8192_S8192x1_0 t : (⟨S8192x1, .f32⟩ : BufTy).Contents (Elt Ideal))⟩]
          concatenates_S8192x3_S8192x1_S8192x4_d1) : (⟨S8192x4, .f32⟩ : BufTy).Contents (Elt Ideal))
      ((transpose S4x4 [1, 0] aW transposes_S4x4_S4x4_1_0) : (⟨S4x4, .f32⟩ : BufTy).Contents (Elt Ideal)))
    ((broadcastInDim S8192x4 ![0, 1] bcast_S1x4_S8192x4_0_1
        ((broadcastInDim S1x4 ![1] bcast_S4_S1x4_1 ab) : (⟨S1x4, .f32⟩ : BufTy).Contents (Elt Ideal))) :
      (⟨S8192x4, .f32⟩ : BufTy).Contents (Elt Ideal))

/-- The region finds the alphas array in the second window's array. -/
theorem found_alphas (c : Dev nD) :
    (V m c main_v6 : S8192x4.Idx → EReal) = alphas (m ((c : Thread nD τ).loc main_arg1)) (m ((c : Thread nD τ).loc main_arg2)) (m ((c : Thread nD τ).loc main_arg7)) (m ((c : Thread nD τ).loc main_arg8)) := by
  dsimp only [Gen.V, Gen.hostOps0]; after_results; rfl

/-- The region finds the dense stack with its last two axes swapped. -/
theorem found_dense (c : Dev nD) (l : Fin 4) (k cc : Fin 1024) :
    (V m c main_v7 : S4x1024x1024.Idx → EReal) (ix3 l k cc) = ((m ((c : Thread nD τ).loc main_arg3)) : S4x1024x1024.Idx → EReal) (ix3 l cc k) := by
  have h : (V m c main_v7 : S4x1024x1024.Idx → EReal)
      = transpose S4x1024x1024 [0, 2, 1] (m ((c : Thread nD τ).loc main_arg3)) transposes_S4x1024x1024_S4x1024x1024_0_2_1 := by
    dsimp only [Gen.V, Gen.hostOps0]; after_results
  rw [h]
  exact transpose_ix3_021_apply _ _ l k cc

/-- The region finds the stack of factors into the bottleneck with its last two axes swapped. -/
theorem found_down (c : Dev nD) (l : Fin 4) (k : Fin 1024) (j : Fin 16) :
    (V m c main_v8 : S4x1024x16.Idx → EReal) (ix3 l k j) = ((m ((c : Thread nD τ).loc main_arg5)) : S4x16x1024.Idx → EReal) (ix3 l j k) := by
  have h : (V m c main_v8 : S4x1024x16.Idx → EReal)
      = transpose S4x1024x16 [0, 2, 1] (m ((c : Thread nD τ).loc main_arg5)) transposes_S4x16x1024_S4x1024x16_0_2_1 := by
    dsimp only [Gen.V, Gen.hostOps0]; after_results
  rw [h]
  exact transpose_ix3_021_apply _ _ l k j

/-- The region finds the stack of factors out of the bottleneck with its last two axes swapped. -/
theorem found_up (c : Dev nD) (l : Fin 4) (j : Fin 16) (cc : Fin 1024) :
    (V m c main_v9 : S4x16x1024.Idx → EReal) (ix3 l j cc) = ((m ((c : Thread nD τ).loc main_arg4)) : S4x1024x16.Idx → EReal) (ix3 l cc j) := by
  have h : (V m c main_v9 : S4x16x1024.Idx → EReal)
      = transpose S4x16x1024 [0, 2, 1] (m ((c : Thread nD τ).loc main_arg4)) transposes_S4x1024x16_S4x16x1024_0_2_1 := by
    dsimp only [Gen.V, Gen.hostOps0]; after_results
  rw [h]
  exact transpose_ix3_021_apply _ _ l j cc

/-! ## Each block as rows of its array -/

/-- The printed index maps over the sixteen points: the input, the alphas array and the output move one block of rows
    per point; the stacks stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of point t's input block is row 512·t + p of the input. -/
theorem input_rows (c : Dev nD) (t : Fin cfg0.N) (x : S512x1024.Idx) (k : S8192x1024.Idx)
    (hk0 : (k 0).val = 512 * t.val + (x 0).val) (hk1 : (k 1).val = (x 1).val) :
    (iblk m c 0 t : Vec Ideal S512x1024 .f32) x = (V m c main_arg0 : S8192x1024.Idx → EReal) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- Row p of point t's block of scales is row 512·t + p of the alphas array. -/
theorem scale_rows (c : Dev nD) (t : Fin cfg0.N) (x : S512x4.Idx) (k : S8192x4.Idx)
    (hk0 : (k 0).val = 512 * t.val + (x 0).val) (hk1 : (k 1).val = (x 1).val) :
    (iblk m c 1 t : Vec Ideal S512x4 .f32) x = (V m c main_v6 : S8192x4.Idx → EReal) k := by
  obtain ⟨-, -, e0, e1, -⟩ := idx_facts t
  unfold iblk
  rw [View.read_apply]
  show V m c main_v6 _ = V m c main_v6 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 4 + 1 * (x 1).val = (k 1).val; rw [e1, hk1]; omega

/-- Every point holds the transposed dense stack whole. -/
theorem dense_whole (c : Dev nD) (t : Fin cfg0.N) (x : S4x1024x1024.Idx) :
    (iblk m c 2 t : Vec Ideal S4x1024x1024 .f32) x = (V m c main_v7 : S4x1024x1024.Idx → EReal) x := by
  obtain ⟨-, -, -, -, e0, e1, e2, -⟩ := idx_facts t
  unfold iblk
  rw [View.read_apply]
  show V m c main_v7 _ = V m c main_v7 _
  congr 1
  funext a
  apply Fin.ext
  match a with
  | ⟨0, _⟩ => show win0_2.index t (0 : Fin 3) * 4 + 1 * (x 0).val = (x 0).val; rw [e0]; omega
  | ⟨1, _⟩ => show win0_2.index t (1 : Fin 3) * 1024 + 1 * (x 1).val = (x 1).val; rw [e1]; omega
  | ⟨2, _⟩ => show win0_2.index t (2 : Fin 3) * 1024 + 1 * (x 2).val = (x 2).val; rw [e2]; omega

/-- Every point holds the transposed stack of factors into the bottleneck whole. -/
theorem down_whole (c : Dev nD) (t : Fin cfg0.N) (x : S4x1024x16.Idx) :
    (iblk m c 3 t : Vec Ideal S4x1024x16 .f32) x = (V m c main_v8 : S4x1024x16.Idx → EReal) x := by
  obtain ⟨-, -, -, -, -, -, -, e0, e1, e2, -⟩ := idx_facts t
  unfold iblk
  rw [View.read_apply]
  show V m c main_v8 _ = V m c main_v8 _
  congr 1
  funext a
  apply Fin.ext
  match a with
  | ⟨0, _⟩ => show win0_3.index t (0 : Fin 3) * 4 + 1 * (x 0).val = (x 0).val; rw [e0]; omega
  | ⟨1, _⟩ => show win0_3.index t (1 : Fin 3) * 1024 + 1 * (x 1).val = (x 1).val; rw [e1]; omega
  | ⟨2, _⟩ => show win0_3.index t (2 : Fin 3) * 16 + 1 * (x 2).val = (x 2).val; rw [e2]; omega

/-- Every point holds the transposed stack of factors out of the bottleneck whole. -/
theorem up_whole (c : Dev nD) (t : Fin cfg0.N) (x : S4x16x1024.Idx) :
    (iblk m c 4 t : Vec Ideal S4x16x1024 .f32) x = (V m c main_v9 : S4x16x1024.Idx → EReal) x := by
  obtain ⟨-, -, -, -, -, -, -, -, -, -, e0, e1, e2, -⟩ := idx_facts t
  unfold iblk
  rw [View.read_apply]
  show V m c main_v9 _ = V m c main_v9 _
  congr 1
  funext a
  apply Fin.ext
  match a with
  | ⟨0, _⟩ => show win0_4.index t (0 : Fin 3) * 4 + 1 * (x 0).val = (x 0).val; rw [e0]; omega
  | ⟨1, _⟩ => show win0_4.index t (1 : Fin 3) * 16 + 1 * (x 1).val = (x 1).val; rw [e1]; omega
  | ⟨2, _⟩ => show win0_4.index t (2 : Fin 3) * 1024 + 1 * (x 2).val = (x 2).val; rw [e2]; omega

/-- Every point holds the bias stack whole. -/
theorem bias_whole (c : Dev nD) (t : Fin cfg0.N) (x : S4x1024.Idx) :
    (iblk m c 5 t : Vec Ideal S4x1024 .f32) x = (V m c main_arg6 : S4x1024.Idx → EReal) x := by
  obtain ⟨-, -, -, -, -, -, -, -, -, -, -, -, -, e0, e1, -⟩ := idx_facts t
  unfold iblk
  rw [View.read_apply]
  show V m c main_arg6 _ = V m c main_arg6 _
  congr 1
  funext a
  apply Fin.ext
  match a with
  | ⟨0, _⟩ => show win0_5.index t (0 : Fin 2) * 4 + 1 * (x 0).val = (x 0).val; rw [e0]; omega
  | ⟨1, _⟩ => show win0_5.index t (1 : Fin 2) * 1024 + 1 * (x 1).val = (x 1).val; rw [e1]; omega

/-! ## The whole array -/

/-- The result array as ONE function of what the region finds: at (r, c), the chain of row r of the input, scaled by row
    r of the alphas array, over the transposed stacks read at swapped coordinates. -/
def wholeArray (c : Dev nD) : S8192x1024.Idx → EReal := fun i =>
  chain (fun l cc k => (V m c main_v7 : S4x1024x1024.Idx → EReal) (ix3 l k cc))
    (fun l j k => (V m c main_v8 : S4x1024x16.Idx → EReal) (ix3 l k j))
    (fun l cc j => (V m c main_v9 : S4x16x1024.Idx → EReal) (ix3 l j cc))
    (fun l cc => (V m c main_arg6 : S4x1024.Idx → EReal) (ix2 l cc))
    (fun l => (V m c main_v6 : S8192x4.Idx → EReal) (ix2 (i 0) l))
    (fun k => (V m c main_arg0 : S8192x1024.Idx → EReal) (ix2 (i 0) k)) (i 1)

/-- WHAT POINT `t` WRITES BACK is block t of `wholeArray`. -/
theorem flushed_eq (c : Dev nD) (t : Fin cfg0.N) :
    (dats m 0 c).flushed 6 t = ((cfg0.win 6).blk t).view.read (Elt Ideal) (wholeArray m c) := by
  rw [Cert.KernelIdeal.Value.flushed6]
  funext j
  obtain ⟨p, q, rfl⟩ : ∃ (p : Fin 512) (q : Fin 1024), j = ix2 p q := ⟨j 0, j 1, eq_ix2 j⟩
  have hN : cfg0.N = 16 := N_0
  have ht := t.isLt
  have hR : 512 * t.val + p.val < 8192 := by have := p.isLt; omega
  obtain ⟨-, -, -, -, -, -, -, -, -, -, -, -, -, -, -, e0, e1⟩ := idx_facts t
  have hemb : ((cfg0.win 6).blk t).view.emb (ix2 p q) = (ix2 (⟨512 * t.val + p.val, hR⟩ : Fin 8192) q : S8192x1024.Idx) := by
    funext a
    apply Fin.ext
    match a with
    | ⟨0, _⟩ => show win0_6.index t (0 : Fin 2) * 512 + 1 * p.val = 512 * t.val + p.val; rw [e0]; omega
    | ⟨1, _⟩ => show win0_6.index t (1 : Fin 2) * 1024 + 1 * q.val = q.val; rw [e1]; omega
  show out0_6 (iblk m c 0 t) (iblk m c 1 t) (iblk m c 2 t) (iblk m c 3 t) (iblk m c 4 t) (iblk m c 5 t) (ix2 p q)
    = wholeArray m c (((cfg0.win 6).blk t).view.emb (ix2 p q))
  rw [hemb]
  exact out_block (iblk m c 0 t) (iblk m c 1 t) (iblk m c 2 t) (iblk m c 3 t) (iblk m c 4 t) (iblk m c 5 t)
    (V m c main_arg0) (V m c main_v6) (V m c main_v7) (V m c main_v8) (V m c main_v9) (V m c main_arg6)
    (⟨512 * t.val + p.val, hR⟩ : Fin 8192) p q
    (fun k => input_rows m c t (ix2 p k) (ix2 (⟨512 * t.val + p.val, hR⟩ : Fin 8192) k) rfl rfl)
    (fun l => scale_rows m c t (ix2 p l) (ix2 (⟨512 * t.val + p.val, hR⟩ : Fin 8192) l) rfl rfl)
    (dense_whole m c t) (down_whole m c t) (up_whole m c t) (bias_whole m c t)

/-- An index of the array is in point `t`'s block iff each coordinate is in the block's range on its axis. -/
theorem mem_blk (t : Fin cfg0.N) (i : S8192x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v10).slice (win0_6.rect t)).set ↔ _
  rw [View.set_slice_whole, Rect.mem_set_unit]
  exact Iff.rfl

/-- The sixteen blocks tile the array: row r is in the block of point r / 512. -/
theorem cover (i : S8192x1024.Idx) :
    ∃ t : Fin cfg0.N, (cfg0.win 6).flush t = true ∧ i ∈ ((cfg0.win 6).blk t).view.set := by
  have hN : cfg0.N = 16 := N_0
  have hi0 : (i 0).val < 8192 := (i 0).isLt
  have hi1 : (i 1).val < 1024 := (i 1).isLt
  refine ⟨⟨(i 0).val / 512, by rw [hN]; omega⟩, flush0_6 _, ?_⟩
  rw [mem_blk]
  obtain ⟨-, -, -, -, -, -, -, -, -, -, -, -, -, -, -, e0, e1⟩ := idx_facts (⟨(i 0).val / 512, by rw [hN]; omega⟩ : Fin cfg0.N)
  intro a
  match a with
  | ⟨0, _⟩ =>
    show win0_6.index _ (0 : Fin 2) * 512 ≤ (i 0).val ∧ (i 0).val < win0_6.index _ (0 : Fin 2) * 512 + 512
    rw [e0]
    show (i 0).val / 512 * 512 ≤ (i 0).val ∧ (i 0).val < (i 0).val / 512 * 512 + 512
    omega
  | ⟨1, _⟩ =>
    show win0_6.index _ (1 : Fin 2) * 1024 ≤ (i 1).val ∧ (i 1).val < win0_6.index _ (1 : Fin 2) * 1024 + 1024
    rw [e1]
    omega

/-- THE ARRAY after the run is `wholeArray`. -/
theorem final (c : Dev nD) : (dats m 0 c).arrAt 6 cfg0.N = wholeArray m c :=
  (dats m 0 c).arrAt_eq_of_cover 6 (wholeArray m c) (fun t _ => flushed_eq m c t) cover

/-- A transposed stack read at swapped coordinates is the stack: `wholeArray` is `RowChain.result` of the arguments,
    the alphas array the program's own term of them. -/
theorem wholeArray_eq (c : Dev nD) :
    wholeArray m c = result (m ((c : Thread nD τ).loc main_arg0)) (alphas (m ((c : Thread nD τ).loc main_arg1)) (m ((c : Thread nD τ).loc main_arg2)) (m ((c : Thread nD τ).loc main_arg7)) (m ((c : Thread nD τ).loc main_arg8))) (m ((c : Thread nD τ).loc main_arg3)) (m ((c : Thread nD τ).loc main_arg4)) (m ((c : Thread nD τ).loc main_arg5)) (m ((c : Thread nD τ).loc main_arg6)) := by
  funext i
  obtain ⟨r, q, rfl⟩ : ∃ (r : Fin 8192) (q : Fin 1024), i = ix2 r q := ⟨i 0, i 1, eq_ix2 i⟩
  show chain (fun l cc k => (V m c main_v7 : S4x1024x1024.Idx → EReal) (ix3 l k cc))
      (fun l j k => (V m c main_v8 : S4x1024x16.Idx → EReal) (ix3 l k j))
      (fun l cc j => (V m c main_v9 : S4x16x1024.Idx → EReal) (ix3 l j cc))
      (fun l cc => (V m c main_arg6 : S4x1024.Idx → EReal) (ix2 l cc))
      (fun l => (V m c main_v6 : S8192x4.Idx → EReal) (ix2 r l))
      (fun k => (V m c main_arg0 : S8192x1024.Idx → EReal) (ix2 r k)) q
    = chain (fun l cc k => ((m ((c : Thread nD τ).loc main_arg3)) : S4x1024x1024.Idx → EReal) (ix3 l cc k))
      (fun l j k => ((m ((c : Thread nD τ).loc main_arg5)) : S4x16x1024.Idx → EReal) (ix3 l j k))
      (fun l cc j => ((m ((c : Thread nD τ).loc main_arg4)) : S4x1024x16.Idx → EReal) (ix3 l cc j))
      (fun l cc => ((m ((c : Thread nD τ).loc main_arg6)) : S4x1024.Idx → EReal) (ix2 l cc))
      (fun l => alphas (m ((c : Thread nD τ).loc main_arg1)) (m ((c : Thread nD τ).loc main_arg2)) (m ((c : Thread nD τ).loc main_arg7)) (m ((c : Thread nD τ).loc main_arg8)) (ix2 r l))
      (fun k => ((m ((c : Thread nD τ).loc main_arg0)) : S8192x1024.Idx → EReal) (ix2 r k)) q
  rw [found_alphas m c, V_main_arg0 m c, V_main_arg6 m c]
  simp only [found_dense m c, found_down m c, found_up m c]

/-- The run, read: the result array at `RowChain.result` of the arguments, the arguments unchanged. -/
theorem run : θ_run defs (onTc (τ := τ) (main (F := Ideal))) ⟨m, fun _ => 0, ρ⟩ fun r => ∀ c : Dev nD,
      r.2.mem ((c : Thread nD τ).loc main_v10)
        = result (m ((c : Thread nD τ).loc main_arg0)) (alphas (m ((c : Thread nD τ).loc main_arg1)) (m ((c : Thread nD τ).loc main_arg2)) (m ((c : Thread nD τ).loc main_arg7)) (m ((c : Thread nD τ).loc main_arg8))) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (wholeArray_eq m c)), (h c).2⟩)
    (Cert.KernelIdeal.Value.run_blocks m ρ)

end Cert.KernelIdeal.Chain

end
-- ==== Proof.RefLayer0.lean ====
/-
  The first layer of the reference, read at an index.

  The reference slices layer 0 off each parameter stack, drops the unit axis, transposes, and contracts: the dense
  product and the two low-rank products are sums over the contracted index; the scale is column 0 of the alphas array
  broadcast along the row, the bias row 0 of the bias stack broadcast down the rows. Reading every stage at an index
  and composing the index maps (a slice adds its offset, a squeeze keeps the row-major position, a transpose swaps the
  two coordinates) gives, at (r, c), `RowChain.rowLayer` of row r of the layer's input with the stacks read at their own
  coordinates. The alphas array is kept as the program's own stage.
-/
import proofs.«151396_j2216203125290_1_alg».proof.Proof.Gen.ReferenceIdeal.Read
import proofs.«151396_j2216203125290_1_alg».proof.Proof.RowChain

noncomputable section

namespace Cert.ReferenceIdeal.Chain

open Cert.ReferenceIdeal Cert.ReferenceIdeal.Gen Cert.ReferenceIdeal.Read Idealize.ShloMosaic Idealize.ShloMosaic.ValueIdx Cert.RowChain

/-- Layer 0 of the reference at (r, c): the row layer of row r of the layer's input, with slice 0 of the stacked
    parameters (each sliced, squeezed and transposed by the program, read back here to the stack's own coordinates) and
    column 0 of the scales. -/
theorem layer0 (x0 : (⟨S8192x1024, .f32⟩ : BufTy).Contents (Elt Ideal)) (x1 : (⟨S8192x3, .f32⟩ : BufTy).Contents (Elt Ideal))
    (x2 : (⟨S8192, .f32⟩ : BufTy).Contents (Elt Ideal)) (x3 : (⟨S4x1024x1024, .f32⟩ : BufTy).Contents (Elt Ideal))
    (x4 : (⟨S4x1024x16, .f32⟩ : BufTy).Contents (Elt Ideal)) (x5 : (⟨S4x16x1024, .f32⟩ : BufTy).Contents (Elt Ideal))
    (x6 : (⟨S4x1024, .f32⟩ : BufTy).Contents (Elt Ideal)) (x7 : (⟨S4x4, .f32⟩ : BufTy).Contents (Elt Ideal))
    (x8 : (⟨S4, .f32⟩ : BufTy).Contents (Elt Ideal)) (r : Fin 8192) (c : Fin 1024) :
    val_main_v27 (F := Ideal) x0 x1 x2 x3 x4 x5 x6 x7 x8 (ix2 r c)
      = rowLayer (fun c k => x3 (ix3 (0 : Fin 4) c k)) (fun j k => x5 (ix3 (0 : Fin 4) j k)) (fun c j => x4 (ix3 (0 : Fin 4) c j))
          (fun c => x6 (ix2 (0 : Fin 4) c)) (val_main_v6 (F := Ideal) x1 x2 x7 x8 (ix2 r (0 : Fin 4)))
          (fun k => x0 (ix2 r k)) c := by
  have hc := c.isLt
  -- the dense matrix: slice, squeeze, transpose, read at (contraction k, column c), is the stack at (layer, c, k)
  have eW : ∀ k : Fin 1024, idx_main_v16 (idx_main_v17 (idx_main_v18 (ridx_main_v19 (ix2 r c) k))) = ix3 (0 : Fin 4) c k := fun k =>
    funext fun a => Fin.ext (by
      have hk := k.isLt
      match a with
      | ⟨0, _⟩ => rfl
      | ⟨1, _⟩ => show (c.val * 1024 + k.val) / 1024 % 1024 = c.val; omega
      | ⟨2, _⟩ => show (c.val * 1024 + k.val) % 1024 = k.val; omega)
  have exW : ∀ k : Fin 1024, lidx_main_v19 (ix2 r c) k = ix2 r k := fun k =>
    funext fun a => Fin.ext (by match a with | ⟨0, _⟩ => rfl | ⟨1, _⟩ => rfl)
  -- the factor out of the bottleneck, at (rank j, column c), is the stack at (layer, c, j)
  have eA : ∀ j : Fin 16, idx_main_v12 (idx_main_v13 (idx_main_v14 (ridx_main_v15 (ix2 r c) j))) = ix3 (0 : Fin 4) c j := fun j =>
    funext fun a => Fin.ext (by
      have hj := j.isLt
      match a with
      | ⟨0, _⟩ => rfl
      | ⟨1, _⟩ => show (c.val * 16 + j.val) / 16 % 1024 = c.val; omega
      | ⟨2, _⟩ => show (c.val * 16 + j.val) % 16 = j.val; omega)
  -- the factor into the bottleneck, at (contraction k, rank j), is the stack at (layer, j, k)
  have eB : ∀ (j : Fin 16) (k : Fin 1024), idx_main_v8 (idx_main_v9 (idx_main_v10 (ridx_main_v11 (lidx_main_v15 (ix2 r c) j) k))) = ix3 (0 : Fin 4) j k := fun j k =>
    funext fun a => Fin.ext (by
      have hj := j.isLt
      have hk := k.isLt
      match a with
      | ⟨0, _⟩ => rfl
      | ⟨1, _⟩ => show (j.val * 1024 + k.val) / 1024 % 16 = j.val; omega
      | ⟨2, _⟩ => show (j.val * 1024 + k.val) % 1024 = k.val; omega)
  have exB : ∀ (j : Fin 16) (k : Fin 1024), lidx_main_v11 (lidx_main_v15 (ix2 r c) j) k = ix2 r k := fun j k =>
    funext fun a => Fin.ext (by match a with | ⟨0, _⟩ => rfl | ⟨1, _⟩ => rfl)
  -- the scale: the alphas array at (r, layer); the bias: the bias stack at (layer, c)
  have ea : idx_main_v7 (idx_main_v20 (ix2 r c)) = ix2 r (0 : Fin 4) :=
    funext fun a => Fin.ext (by match a with | ⟨0, _⟩ => rfl | ⟨1, _⟩ => rfl)
  have eb : idx_main_v23 (idx_main_v24 (idx_main_v25 (idx_main_v26 (ix2 r c)))) = ix2 (0 : Fin 4) c :=
    funext fun a => Fin.ext (by
      match a with
      | ⟨0, _⟩ => rfl
      | ⟨1, _⟩ => show c.val % 1024 = c.val; omega)
  rw [val_main_v27_apply, val_main_v22_apply, val_main_v21_apply, val_main_v19_apply, val_main_v15_apply,
    val_main_v20_apply, val_main_v7_apply, val_main_v26_apply, val_main_v25_apply, val_main_v24_apply, val_main_v23_apply]
  simp only [val_main_v18_apply, val_main_v17_apply, val_main_v16_apply, val_main_v11_apply, val_main_v10_apply,
    val_main_v9_apply, val_main_v8_apply, val_main_v14_apply, val_main_v13_apply, val_main_v12_apply,
    eW, exW, eA, eB, exB, ea, eb]
  rfl

end Cert.ReferenceIdeal.Chain

end
-- ==== Proof.RefLayer1.lean ====
/- Layer 1 of the reference, read at an index: the reading of layer 0, of slice 1 of each parameter stack and column 1 of
   the scales, on the row the layer before left. -/
import proofs.«151396_j2216203125290_1_alg».proof.Proof.Gen.ReferenceIdeal.Read
import proofs.«151396_j2216203125290_1_alg».proof.Proof.RowChain

noncomputable section

namespace Cert.ReferenceIdeal.Chain

open Cert.ReferenceIdeal Cert.ReferenceIdeal.Gen Cert.ReferenceIdeal.Read Idealize.ShloMosaic Idealize.ShloMosaic.ValueIdx Cert.RowChain

/-- Layer 1 of the reference at (r, c): the row layer of row r of the layer's input, with slice 1 of the stacked
    parameters (each sliced, squeezed and transposed by the program, read back here to the stack's own coordinates) and
    column 1 of the scales. -/
theorem layer1 (x0 : (⟨S8192x1024, .f32⟩ : BufTy).Contents (Elt Ideal)) (x1 : (⟨S8192x3, .f32⟩ : BufTy).Contents (Elt Ideal))
    (x2 : (⟨S8192, .f32⟩ : BufTy).Contents (Elt Ideal)) (x3 : (⟨S4x1024x1024, .f32⟩ : BufTy).Contents (Elt Ideal))
    (x4 : (⟨S4x1024x16, .f32⟩ : BufTy).Contents (Elt Ideal)) (x5 : (⟨S4x16x1024, .f32⟩ : BufTy).Contents (Elt Ideal))
    (x6 : (⟨S4x1024, .f32⟩ : BufTy).Contents (Elt Ideal)) (x7 : (⟨S4x4, .f32⟩ : BufTy).Contents (Elt Ideal))
    (x8 : (⟨S4, .f32⟩ : BufTy).Contents (Elt Ideal)) (r : Fin 8192) (c : Fin 1024) :
    val_main_v48 (F := Ideal) x0 x1 x2 x3 x4 x5 x6 x7 x8 (ix2 r c)
      = rowLayer (fun c k => x3 (ix3 (1 : Fin 4) c k)) (fun j k => x5 (ix3 (1 : Fin 4) j k)) (fun c j => x4 (ix3 (1 : Fin 4) c j))
          (fun c => x6 (ix2 (1 : Fin 4) c)) (val_main_v6 (F := Ideal) x1 x2 x7 x8 (ix2 r (1 : Fin 4)))
          (fun k => val_main_v27 (F := Ideal) x0 x1 x2 x3 x4 x5 x6 x7 x8 (ix2 r k)) c := by
  have hc := c.isLt
  -- the dense matrix: slice, squeeze, transpose, read at (contraction k, column c), is the stack at (layer, c, k)
  have eW : ∀ k : Fin 1024, idx_main_v37 (idx_main_v38 (idx_main_v39 (ridx_main_v40 (ix2 r c) k))) = ix3 (1 : Fin 4) c k := fun k =>
    funext fun a => Fin.ext (by
      have hk := k.isLt
      match a with
      | ⟨0, _⟩ => rfl
      | ⟨1, _⟩ => show (c.val * 1024 + k.val) / 1024 % 1024 = c.val; omega
      | ⟨2, _⟩ => show (c.val * 1024 + k.val) % 1024 = k.val; omega)
  have exW : ∀ k : Fin 1024, lidx_main_v40 (ix2 r c) k = ix2 r k := fun k =>
    funext fun a => Fin.ext (by match a with | ⟨0, _⟩ => rfl | ⟨1, _⟩ => rfl)
  -- the factor out of the bottleneck, at (rank j, column c), is the stack at (layer, c, j)
  have eA : ∀ j : Fin 16, idx_main_v33 (idx_main_v34 (idx_main_v35 (ridx_main_v36 (ix2 r c) j))) = ix3 (1 : Fin 4) c j := fun j =>
    funext fun a => Fin.ext (by
      have hj := j.isLt
      match a with
      | ⟨0, _⟩ => rfl
      | ⟨1, _⟩ => show (c.val * 16 + j.val) / 16 % 1024 = c.val; omega
      | ⟨2, _⟩ => show (c.val * 16 + j.val) % 16 = j.val; omega)
  -- the factor into the bottleneck, at (contraction k, rank j), is the stack at (layer, j, k)
  have eB : ∀ (j : Fin 16) (k : Fin 1024), idx_main_v29 (idx_main_v30 (idx_main_v31 (ridx_main_v32 (lidx_main_v36 (ix2 r c) j) k))) = ix3 (1 : Fin 4) j k := fun j k =>
    funext fun a => Fin.ext (by
      have hj := j.isLt
      have hk := k.isLt
      match a with
      | ⟨0, _⟩ => rfl
      | ⟨1, _⟩ => show (j.val * 1024 + k.val) / 1024 % 16 = j.val; omega
      | ⟨2, _⟩ => show (j.val * 1024 + k.val) % 1024 = k.val; omega)
  have exB : ∀ (j : Fin 16) (k : Fin 1024), lidx_main_v32 (lidx_main_v36 (ix2 r c) j) k = ix2 r k := fun j k =>
    funext fun a => Fin.ext (by match a with | ⟨0, _⟩ => rfl | ⟨1, _⟩ => rfl)
  -- the scale: the alphas array at (r, layer); the bias: the bias stack at (layer, c)
  have ea : idx_main_v28 (idx_main_v41 (ix2 r c)) = ix2 r (1 : Fin 4) :=
    funext fun a => Fin.ext (by match a with | ⟨0, _⟩ => rfl | ⟨1, _⟩ => rfl)
  have eb : idx_main_v44 (idx_main_v45 (idx_main_v46 (idx_main_v47 (ix2 r c)))) = ix2 (1 : Fin 4) c :=
    funext fun a => Fin.ext (by
      match a with
      | ⟨0, _⟩ => rfl
      | ⟨1, _⟩ => show c.val % 1024 = c.val; omega)
  rw [val_main_v48_apply, val_main_v43_apply, val_main_v42_apply, val_main_v40_apply, val_main_v36_apply,
    val_main_v41_apply, val_main_v28_apply, val_main_v47_apply, val_main_v46_apply, val_main_v45_apply, val_main_v44_apply]
  simp only [val_main_v39_apply, val_main_v38_apply, val_main_v37_apply, val_main_v32_apply, val_main_v31_apply,
    val_main_v30_apply, val_main_v29_apply, val_main_v35_apply, val_main_v34_apply, val_main_v33_apply,
    eW, exW, eA, eB, exB, ea, eb]
  rfl

end Cert.ReferenceIdeal.Chain

end
-- ==== Proof.RefLayer2.lean ====
/- Layer 2 of the reference, read at an index: the reading of layer 0, of slice 2 of each parameter stack and column 2 of
   the scales, on the row the layer before left. -/
import proofs.«151396_j2216203125290_1_alg».proof.Proof.Gen.ReferenceIdeal.Read
import proofs.«151396_j2216203125290_1_alg».proof.Proof.RowChain

noncomputable section

namespace Cert.ReferenceIdeal.Chain

open Cert.ReferenceIdeal Cert.ReferenceIdeal.Gen Cert.ReferenceIdeal.Read Idealize.ShloMosaic Idealize.ShloMosaic.ValueIdx Cert.RowChain

/-- Layer 2 of the reference at (r, c): the row layer of row r of the layer's input, with slice 2 of the stacked
    parameters (each sliced, squeezed and transposed by the program, read back here to the stack's own coordinates) and
    column 2 of the scales. -/
theorem layer2 (x0 : (⟨S8192x1024, .f32⟩ : BufTy).Contents (Elt Ideal)) (x1 : (⟨S8192x3, .f32⟩ : BufTy).Contents (Elt Ideal))
    (x2 : (⟨S8192, .f32⟩ : BufTy).Contents (Elt Ideal)) (x3 : (⟨S4x1024x1024, .f32⟩ : BufTy).Contents (Elt Ideal))
    (x4 : (⟨S4x1024x16, .f32⟩ : BufTy).Contents (Elt Ideal)) (x5 : (⟨S4x16x1024, .f32⟩ : BufTy).Contents (Elt Ideal))
    (x6 : (⟨S4x1024, .f32⟩ : BufTy).Contents (Elt Ideal)) (x7 : (⟨S4x4, .f32⟩ : BufTy).Contents (Elt Ideal))
    (x8 : (⟨S4, .f32⟩ : BufTy).Contents (Elt Ideal)) (r : Fin 8192) (c : Fin 1024) :
    val_main_v69 (F := Ideal) x0 x1 x2 x3 x4 x5 x6 x7 x8 (ix2 r c)
      = rowLayer (fun c k => x3 (ix3 (2 : Fin 4) c k)) (fun j k => x5 (ix3 (2 : Fin 4) j k)) (fun c j => x4 (ix3 (2 : Fin 4) c j))
          (fun c => x6 (ix2 (2 : Fin 4) c)) (val_main_v6 (F := Ideal) x1 x2 x7 x8 (ix2 r (2 : Fin 4)))
          (fun k => val_main_v48 (F := Ideal) x0 x1 x2 x3 x4 x5 x6 x7 x8 (ix2 r k)) c := by
  have hc := c.isLt
  -- the dense matrix: slice, squeeze, transpose, read at (contraction k, column c), is the stack at (layer, c, k)
  have eW : ∀ k : Fin 1024, idx_main_v58 (idx_main_v59 (idx_main_v60 (ridx_main_v61 (ix2 r c) k))) = ix3 (2 : Fin 4) c k := fun k =>
    funext fun a => Fin.ext (by
      have hk := k.isLt
      match a with
      | ⟨0, _⟩ => rfl
      | ⟨1, _⟩ => show (c.val * 1024 + k.val) / 1024 % 1024 = c.val; omega
      | ⟨2, _⟩ => show (c.val * 1024 + k.val) % 1024 = k.val; omega)
  have exW : ∀ k : Fin 1024, lidx_main_v61 (ix2 r c) k = ix2 r k := fun k =>
    funext fun a => Fin.ext (by match a with | ⟨0, _⟩ => rfl | ⟨1, _⟩ => rfl)
  -- the factor out of the bottleneck, at (rank j, column c), is the stack at (layer, c, j)
  have eA : ∀ j : Fin 16, idx_main_v54 (idx_main_v55 (idx_main_v56 (ridx_main_v57 (ix2 r c) j))) = ix3 (2 : Fin 4) c j := fun j =>
    funext fun a => Fin.ext (by
      have hj := j.isLt
      match a with
      | ⟨0, _⟩ => rfl
      | ⟨1, _⟩ => show (c.val * 16 + j.val) / 16 % 1024 = c.val; omega
      | ⟨2, _⟩ => show (c.val * 16 + j.val) % 16 = j.val; omega)
  -- the factor into the bottleneck, at (contraction k, rank j), is the stack at (layer, j, k)
  have eB : ∀ (j : Fin 16) (k : Fin 1024), idx_main_v50 (idx_main_v51 (idx_main_v52 (ridx_main_v53 (lidx_main_v57 (ix2 r c) j) k))) = ix3 (2 : Fin 4) j k := fun j k =>
    funext fun a => Fin.ext (by
      have hj := j.isLt
      have hk := k.isLt
      match a with
      | ⟨0, _⟩ => rfl
      | ⟨1, _⟩ => show (j.val * 1024 + k.val) / 1024 % 16 = j.val; omega
      | ⟨2, _⟩ => show (j.val * 1024 + k.val) % 1024 = k.val; omega)
  have exB : ∀ (j : Fin 16) (k : Fin 1024), lidx_main_v53 (lidx_main_v57 (ix2 r c) j) k = ix2 r k := fun j k =>
    funext fun a => Fin.ext (by match a with | ⟨0, _⟩ => rfl | ⟨1, _⟩ => rfl)
  -- the scale: the alphas array at (r, layer); the bias: the bias stack at (layer, c)
  have ea : idx_main_v49 (idx_main_v62 (ix2 r c)) = ix2 r (2 : Fin 4) :=
    funext fun a => Fin.ext (by match a with | ⟨0, _⟩ => rfl | ⟨1, _⟩ => rfl)
  have eb : idx_main_v65 (idx_main_v66 (idx_main_v67 (idx_main_v68 (ix2 r c)))) = ix2 (2 : Fin 4) c :=
    funext fun a => Fin.ext (by
      match a with
      | ⟨0, _⟩ => rfl
      | ⟨1, _⟩ => show c.val % 1024 = c.val; omega)
  rw [val_main_v69_apply, val_main_v64_apply, val_main_v63_apply, val_main_v61_apply, val_main_v57_apply,
    val_main_v62_apply, val_main_v49_apply, val_main_v68_apply, val_main_v67_apply, val_main_v66_apply, val_main_v65_apply]
  simp only [val_main_v60_apply, val_main_v59_apply, val_main_v58_apply, val_main_v53_apply, val_main_v52_apply,
    val_main_v51_apply, val_main_v50_apply, val_main_v56_apply, val_main_v55_apply, val_main_v54_apply,
    eW, exW, eA, eB, exB, ea, eb]
  rfl

end Cert.ReferenceIdeal.Chain

end
-- ==== Proof.RefLayer3.lean ====
/- Layer 3 of the reference, read at an index: the reading of layer 0, of slice 3 of each parameter stack and column 3 of
   the scales, on the row the layer before left. -/
import proofs.«151396_j2216203125290_1_alg».proof.Proof.Gen.ReferenceIdeal.Read
import proofs.«151396_j2216203125290_1_alg».proof.Proof.RowChain

noncomputable section

namespace Cert.ReferenceIdeal.Chain

open Cert.ReferenceIdeal Cert.ReferenceIdeal.Gen Cert.ReferenceIdeal.Read Idealize.ShloMosaic Idealize.ShloMosaic.ValueIdx Cert.RowChain

/-- Layer 3 of the reference at (r, c): the row layer of row r of the layer's input, with slice 3 of the stacked
    parameters (each sliced, squeezed and transposed by the program, read back here to the stack's own coordinates) and
    column 3 of the scales. -/
theorem layer3 (x0 : (⟨S8192x1024, .f32⟩ : BufTy).Contents (Elt Ideal)) (x1 : (⟨S8192x3, .f32⟩ : BufTy).Contents (Elt Ideal))
    (x2 : (⟨S8192, .f32⟩ : BufTy).Contents (Elt Ideal)) (x3 : (⟨S4x1024x1024, .f32⟩ : BufTy).Contents (Elt Ideal))
    (x4 : (⟨S4x1024x16, .f32⟩ : BufTy).Contents (Elt Ideal)) (x5 : (⟨S4x16x1024, .f32⟩ : BufTy).Contents (Elt Ideal))
    (x6 : (⟨S4x1024, .f32⟩ : BufTy).Contents (Elt Ideal)) (x7 : (⟨S4x4, .f32⟩ : BufTy).Contents (Elt Ideal))
    (x8 : (⟨S4, .f32⟩ : BufTy).Contents (Elt Ideal)) (r : Fin 8192) (c : Fin 1024) :
    val_main_v90 (F := Ideal) x0 x1 x2 x3 x4 x5 x6 x7 x8 (ix2 r c)
      = rowLayer (fun c k => x3 (ix3 (3 : Fin 4) c k)) (fun j k => x5 (ix3 (3 : Fin 4) j k)) (fun c j => x4 (ix3 (3 : Fin 4) c j))
          (fun c => x6 (ix2 (3 : Fin 4) c)) (val_main_v6 (F := Ideal) x1 x2 x7 x8 (ix2 r (3 : Fin 4)))
          (fun k => val_main_v69 (F := Ideal) x0 x1 x2 x3 x4 x5 x6 x7 x8 (ix2 r k)) c := by
  have hc := c.isLt
  -- the dense matrix: slice, squeeze, transpose, read at (contraction k, column c), is the stack at (layer, c, k)
  have eW : ∀ k : Fin 1024, idx_main_v79 (idx_main_v80 (idx_main_v81 (ridx_main_v82 (ix2 r c) k))) = ix3 (3 : Fin 4) c k := fun k =>
    funext fun a => Fin.ext (by
      have hk := k.isLt
      match a with
      | ⟨0, _⟩ => rfl
      | ⟨1, _⟩ => show (c.val * 1024 + k.val) / 1024 % 1024 = c.val; omega
      | ⟨2, _⟩ => show (c.val * 1024 + k.val) % 1024 = k.val; omega)
  have exW : ∀ k : Fin 1024, lidx_main_v82 (ix2 r c) k = ix2 r k := fun k =>
    funext fun a => Fin.ext (by match a with | ⟨0, _⟩ => rfl | ⟨1, _⟩ => rfl)
  -- the factor out of the bottleneck, at (rank j, column c), is the stack at (layer, c, j)
  have eA : ∀ j : Fin 16, idx_main_v75 (idx_main_v76 (idx_main_v77 (ridx_main_v78 (ix2 r c) j))) = ix3 (3 : Fin 4) c j := fun j =>
    funext fun a => Fin.ext (by
      have hj := j.isLt
      match a with
      | ⟨0, _⟩ => rfl
      | ⟨1, _⟩ => show (c.val * 16 + j.val) / 16 % 1024 = c.val; omega
      | ⟨2, _⟩ => show (c.val * 16 + j.val) % 16 = j.val; omega)
  -- the factor into the bottleneck, at (contraction k, rank j), is the stack at (layer, j, k)
  have eB : ∀ (j : Fin 16) (k : Fin 1024), idx_main_v71 (idx_main_v72 (idx_main_v73 (ridx_main_v74 (lidx_main_v78 (ix2 r c) j) k))) = ix3 (3 : Fin 4) j k := fun j k =>
    funext fun a => Fin.ext (by
      have hj := j.isLt
      have hk := k.isLt
      match a with
      | ⟨0, _⟩ => rfl
      | ⟨1, _⟩ => show (j.val * 1024 + k.val) / 1024 % 16 = j.val; omega
      | ⟨2, _⟩ => show (j.val * 1024 + k.val) % 1024 = k.val; omega)
  have exB : ∀ (j : Fin 16) (k : Fin 1024), lidx_main_v74 (lidx_main_v78 (ix2 r c) j) k = ix2 r k := fun j k =>
    funext fun a => Fin.ext (by match a with | ⟨0, _⟩ => rfl | ⟨1, _⟩ => rfl)
  -- the scale: the alphas array at (r, layer); the bias: the bias stack at (layer, c)
  have ea : idx_main_v70 (idx_main_v83 (ix2 r c)) = ix2 r (3 : Fin 4) :=
    funext fun a => Fin.ext (by match a with | ⟨0, _⟩ => rfl | ⟨1, _⟩ => rfl)
  have eb : idx_main_v86 (idx_main_v87 (idx_main_v88 (idx_main_v89 (ix2 r c)))) = ix2 (3 : Fin 4) c :=
    funext fun a => Fin.ext (by
      match a with
      | ⟨0, _⟩ => rfl
      | ⟨1, _⟩ => show c.val % 1024 = c.val; omega)
  rw [val_main_v90_apply, val_main_v85_apply, val_main_v84_apply, val_main_v82_apply, val_main_v78_apply,
    val_main_v83_apply, val_main_v70_apply, val_main_v89_apply, val_main_v88_apply, val_main_v87_apply, val_main_v86_apply]
  simp only [val_main_v81_apply, val_main_v80_apply, val_main_v79_apply, val_main_v74_apply, val_main_v73_apply,
    val_main_v72_apply, val_main_v71_apply, val_main_v77_apply, val_main_v76_apply, val_main_v75_apply,
    eW, exW, eA, eB, exB, ea, eb]
  rfl

end Cert.ReferenceIdeal.Chain

end
-- ==== Proof.RefChain.lean ====
/-
  The reference's last stage is the chain of four row layers.

  Each layer of the reference, read at (r, c), is `RowChain.rowLayer` of row r of the layer before (of the input, for the
  first), with that layer's slice of the parameter stacks read at the stacks' own coordinates and that layer's column of
  the alphas array. Composing the four gives `RowChain.result` of the input, the alphas array and the four stacks. The
  alphas array stays the program's own stage: both programs compute it by the same operations.
-/
import proofs.«151396_j2216203125290_1_alg».proof.Proof.RefLayer0
import proofs.«151396_j2216203125290_1_alg».proof.Proof.RefLayer1
import proofs.«151396_j2216203125290_1_alg».proof.Proof.RefLayer2
import proofs.«151396_j2216203125290_1_alg».proof.Proof.RefLayer3

noncomputable section

namespace Cert.ReferenceIdeal.Chain

open Cert.ReferenceIdeal Cert.ReferenceIdeal.Gen Cert.ReferenceIdeal.Read Idealize.ShloMosaic Idealize.ShloMosaic.ValueIdx Cert.RowChain

/-- THE REFERENCE'S RESULT: its last stage is `RowChain.result` of the input, the alphas array and the four stacks. -/
theorem last_stage_eq (x0 : (⟨S8192x1024, .f32⟩ : BufTy).Contents (Elt Ideal)) (x1 : (⟨S8192x3, .f32⟩ : BufTy).Contents (Elt Ideal))
    (x2 : (⟨S8192, .f32⟩ : BufTy).Contents (Elt Ideal)) (x3 : (⟨S4x1024x1024, .f32⟩ : BufTy).Contents (Elt Ideal))
    (x4 : (⟨S4x1024x16, .f32⟩ : BufTy).Contents (Elt Ideal)) (x5 : (⟨S4x16x1024, .f32⟩ : BufTy).Contents (Elt Ideal))
    (x6 : (⟨S4x1024, .f32⟩ : BufTy).Contents (Elt Ideal)) (x7 : (⟨S4x4, .f32⟩ : BufTy).Contents (Elt Ideal))
    (x8 : (⟨S4, .f32⟩ : BufTy).Contents (Elt Ideal)) :
    val_main_v90 (F := Ideal) x0 x1 x2 x3 x4 x5 x6 x7 x8
      = result x0 (val_main_v6 (F := Ideal) x1 x2 x7 x8) x3 x4 x5 x6 := by
  funext i
  obtain ⟨r, c, rfl⟩ : ∃ (r : Fin 8192) (c : Fin 1024), i = ix2 r c := ⟨i 0, i 1, eq_ix2 i⟩
  rw [layer3]
  simp only [layer2, layer1, layer0]
  rfl

end Cert.ReferenceIdeal.Chain

end
-- ==== Proof.lean ====
/-
  A chain of four low-rank-modulated dense layers on 8192 rows of width 1024, computed by a Pallas kernel on sixteen
  blocks of 512 rows against the plain jnp program, equal over the extended reals.

  Both programs first form the per-row, per-layer scales (the alphas array: the row's parameters `nu` and `t` through one
  small affine map) by the same host operations, and then apply, layer by layer,
      x ← (x · Wᵀ  +  a ⊙ ((x · Bᵀ) · Aᵀ))  +  b
  with the layer's slice of the stacked parameters and its column `a` of the scales. The kernel keeps the stacks
  transposed and whole in every grid point, casts the operands of its MXU products to bf16 and accumulates into zero; at
  the ideal values the casts are the identity and a product into zero is the plain sum, so a layer at (row, column) is
  the same sums in the same grouping as the reference's `dot_general`s: `RowChain.rowLayer`, a function of ONE row. The
  chain of a row does not know which block the row is met in, so the kernel's sixteen write-backs are the sixteen row
  blocks of one whole-array function, `RowChain.result` (Proof/KernelValue.lean), and the reference's last stage is that
  function too (Proof/RefChain.lean). No law beyond the definitions of the operations joins the two sides, so the
  precondition (every input finite) is not used.

  The three frames are the generated frame certificates (the reference's is its generated run with the result dropped);
  the ideal pass rewrote nothing, so the idealization claim is trivial.
-/
import proofs.«151396_j2216203125290_1_alg».proof.Defs
import proofs.«151396_j2216203125290_1_alg».proof.Proof.Gen.Kernel
import proofs.«151396_j2216203125290_1_alg».proof.Proof.Gen.Kernel.Skeleton
import proofs.«151396_j2216203125290_1_alg».proof.Proof.Gen.Kernel.Launch
import proofs.«151396_j2216203125290_1_alg».proof.Proof.Gen.Kernel.Points
import proofs.«151396_j2216203125290_1_alg».proof.Proof.Gen.Kernel.Frame
import proofs.«151396_j2216203125290_1_alg».proof.Proof.Gen.KernelIdeal
import proofs.«151396_j2216203125290_1_alg».proof.Proof.Gen.KernelIdeal.Skeleton
import proofs.«151396_j2216203125290_1_alg».proof.Proof.Gen.KernelIdeal.Launch
import proofs.«151396_j2216203125290_1_alg».proof.Proof.Gen.KernelIdeal.Points
import proofs.«151396_j2216203125290_1_alg».proof.Proof.Gen.KernelIdeal.Frame
import proofs.«151396_j2216203125290_1_alg».proof.Proof.Gen.ReferenceIdeal
import proofs.«151396_j2216203125290_1_alg».proof.Proof.Gen.Pre_finite_inputs
import proofs.«151396_j2216203125290_1_alg».proof.Proof.Gen.KernelIdeal.Value
import proofs.«151396_j2216203125290_1_alg».proof.Proof.Gen.ReferenceIdeal.Run
import proofs.«151396_j2216203125290_1_alg».proof.Proof.Gen.ReferenceIdeal.Read
import proofs.«151396_j2216203125290_1_alg».proof.Proof.KernelValue
import proofs.«151396_j2216203125290_1_alg».proof.Proof.RefChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The alphas array is one term in both programs: the same host operations of the same four arguments. -/
theorem alphas_eq (x1 : Vec Ideal Cert.KernelIdeal.S8192x3 .f32) (x2 : Vec Ideal Cert.KernelIdeal.S8192 .f32)
    (x7 : Vec Ideal Cert.KernelIdeal.S4x4 .f32) (x8 : Vec Ideal Cert.KernelIdeal.S4 .f32) :
    Cert.ReferenceIdeal.Read.val_main_v6 (F := Ideal) x1 x2 x7 x8 = Cert.KernelIdeal.Chain.alphas x1 x2 x7 x8 := rfl

/-- At the ideal values both programs end with `RowChain.result` of arguments that agree: the kernel's sixteen row blocks
    of it (Proof/KernelValue.lean), the reference's last stage (Proof/RefChain.lean). -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.ReferenceIdeal.Chain.last_stage_eq, alphas_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
